-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S5000x16 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S500000 : Shape := ⟨1, ![500000]⟩
abbrev S128x8 : Shape := ⟨2, ![128, 8]⟩
abbrev S8 : Shape := ⟨1, ![8]⟩
abbrev S8x128 : Shape := ⟨2, ![8, 128]⟩
abbrev S128 : Shape := ⟨1, ![128]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_
  bcast_S_S8x128 : S_.BroadcastsInDim S8x128 (![] : Fin 0 → Fin S8x128.rank)
  reducesTo_S8x128_S_d0_1 : S8x128.ReducesTo [0, 1] S_
  bcast_S_S128 : S_.BroadcastsInDim S128 (![] : Fin 0 → Fin S128.rank)
  reducesTo_S128_S_d0 : S128.ReducesTo [0] S_
  bcast_S_S500000 : S_.BroadcastsInDim S500000 (![] : Fin 0 → Fin S500000.rank)
  reducesTo_S500000_S_d0 : S500000.ReducesTo [0] S_

variable [Facts]

def fn_part1 {F : FTy → Type} [FloatOps F] (main_arg1 : IVec S500000 32) (main_arg5 : FVec F S128 .f32) (main_v13 : IVec S_ 1) (main_v16 : IVec S8x128 1) : IVec S_ 1 :=
  let main_c_5 : IVec S_ 1 := constantI S_ 1 1#1
  let main_v17 : IVec S_ 1 := (fun x v => Host.reduce IntOp.andi x v reducesTo_S8x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S500000 32 := broadcastInDim S500000 ![] bcast_S_S500000 main_c_8
  let main_v25 : IVec S500000 1 := cmpi .sge main_arg1 main_v24
  let main_c_9 : IVec S_ 32 := constantI S_ 32 16#32
  let main_v26 : IVec S500000 32 := broadcastInDim S500000 ![] bcast_S_S500000 main_c_9
  let main_v27 : IVec S500000 1 := cmpi .slt main_arg1 main_v26
  let main_v28 : IVec S500000 1 := andi main_v25 main_v27
  let main_c_10 : IVec S_ 1 := constantI S_ 1 1#1
  let main_v29 : IVec S_ 1 := (fun x v => Host.reduce IntOp.andi x v reducesTo_S500000_S_d0 h_S_) main_v28 main_c_10
  let main_v30 : IVec S_ 1 := andi main_v23 main_v29
  main_v30

def fn {F : FTy → Type} [FloatOps F] (main_arg0 : FVec F S500000x128 .f32) (main_arg1 : IVec S500000 32) (main_arg2 : FVec F S128x8 .f32) (main_arg3 : FVec F S8 .f32) (main_arg4 : FVec F S8x128 .f32) (main_arg5 : FVec F S128 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S128x8 .f32 := Host.absf main_arg2
  let main_cst_0 : FVec F S_ .f32 := constant S_ .f32 0x7F800000#32
  let main_v5 : FVec F S128x8 .f32 := broadcastInDim S128x8 ![] bcast_S_S128x8 main_cst_0
  let main_v6 : IVec S128x8 1 := cmpf .olt main_v4 main_v5
  let main_c_1 : IVec S_ 1 := constantI S_ 1 1#1
  let main_v7 : IVec S_ 1 := (fun x v => Host.reduce IntOp.andi x v reducesTo_S128x8_S_d0_1 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x128 .f32 := Host.absf main_arg4
  let main_cst_4 : FVec F S_ .f32 := constant S_ .f32 0x7F800000#32
  let main_v15 : FVec F S8x128 .f32 := broadcastInDim S8x128 ![] bcast_S_S8x128 main_cst_4
  let main_v16 : IVec S8x128 1 := cmpf .olt main_v14 main_v15
  fn_part1 (F := F) main_arg1 main_arg5 main_v13 main_v16
-- ==== Kernel.lean ====
abbrev S500000x128 : Shape := ⟨2, ![500000, 128]⟩
abbrev S500000 : Shape := ⟨1, ![500000]⟩
abbrev S128x8 : Shape := ⟨2, ![128, 8]⟩
abbrev S8 : Shape := ⟨1, ![8]⟩
abbrev S8x128 : Shape := ⟨2, ![8, 128]⟩
abbrev S128 : Shape := ⟨1, ![128]⟩
abbrev S500000x1 : Shape := ⟨2, ![500000, 1]⟩
abbrev S2x16x128 : Shape := ⟨3, ![2, 16, 128]⟩
abbrev S2x16x1 : Shape := ⟨3, ![2, 16, 1]⟩
abbrev S5000x128 : Shape := ⟨2, ![5000, 128]⟩
abbrev S5000x1 : Shape := ⟨2, ![5000, 1]⟩
abbrev S1x16x128 : Shape := ⟨3, ![1, 16, 128]⟩
abbrev S1x16x1 : Shape := ⟨3, ![1, 16, 1]⟩
abbrev S16x128 : Shape := ⟨2, ![16, 128]⟩
abbrev S16x1 : Shape := ⟨2, ![16, 1]⟩
abbrev S5000x16 : Shape := ⟨2, ![5000, 16]⟩
abbrev S16 : Shape := ⟨1, ![16]⟩
abbrev S1x16 : Shape := ⟨2, ![1, 16]⟩
abbrev S_ : Shape := ⟨0, ![]⟩
abbrev S16x8 : Shape := ⟨2, ![16, 8]⟩
abbrev S1x8 : Shape := ⟨2, ![1, 8]⟩
abbrev S1x128 : Shape := ⟨2, ![1, 128]⟩

abbrev nBuf : Space → Nat
  | .hbm => 38
  | .vmem => 15
  | .smem => 0
  | _ => 0

abbrev bufTy : (tb : Table) → Fin (tcTables nBuf tb) → BufTy
  | .hbm, ⟨0, _⟩ => ⟨S500000x128, .f32⟩
  | .hbm, ⟨1, _⟩ => ⟨S500000, .i32⟩
  | .hbm, ⟨2, _⟩ => ⟨S128x8, .f32⟩
  | .hbm, ⟨3, _⟩ => ⟨S8, .f32⟩
  | .hbm, ⟨4, _⟩ => ⟨S8x128, .f32⟩
  | .hbm, ⟨5, _⟩ => ⟨S128, .f32⟩
  | .hbm, ⟨6, _⟩ => ⟨S500000x1, .i32⟩
  | .hbm, ⟨7, _⟩ => ⟨S2x16x128, .f32⟩
  | .hbm, ⟨8, _⟩ => ⟨S2x16x1, .f32⟩
  | .hbm, ⟨9, _⟩ => ⟨S_, .f32⟩
  | .hbm, ⟨10, _⟩ => ⟨S16x128, .f32⟩
  | .hbm, ⟨11, _⟩ => ⟨S_, .f32⟩
  | .hbm, ⟨12, _⟩ => ⟨S16x1, .f32⟩
  | .hbm, ⟨13, _⟩ => ⟨S_, .f32⟩
  | .hbm, ⟨14, _⟩ => ⟨S16x1, .f32⟩
  | .hbm, ⟨15, _⟩ => ⟨S16x1, .f32⟩
  | .hbm, ⟨16, _⟩ => ⟨S16x128, .f32⟩
  | .hbm, ⟨17, _⟩ => ⟨S16x128, .f32⟩
  | .hbm, ⟨18, _⟩ => ⟨S16x8, .f32⟩
  | .hbm, ⟨19, _⟩ => ⟨S1x8, .f32⟩
  | .hbm, ⟨20, _⟩ => ⟨S16x8, .f32⟩
  | .hbm, ⟨21, _⟩ => ⟨S16x8, .f32⟩
  | .hbm, ⟨22, _⟩ => ⟨S_, .f32⟩
  | .hbm, ⟨23, _⟩ => ⟨S16x8, .f32⟩
  | .hbm, ⟨24, _⟩ => ⟨S16x8, .f32⟩
  | .hbm, ⟨25, _⟩ => ⟨S16x128, .f32⟩
  | .hbm, ⟨26, _⟩ => ⟨S1x128, .f32⟩
  | .hbm, ⟨27, _⟩ => ⟨S16x128, .f32⟩
  | .hbm, ⟨28, _⟩ => ⟨S16x128, .f32⟩
  | .hbm, ⟨29, _⟩ => ⟨S16x128, .f32⟩
  | .hbm, ⟨30, _⟩ => ⟨S16x128, .f32⟩
  | .hbm, ⟨31, _⟩ => ⟨S_, .f32⟩
  | .hbm, ⟨32, _⟩ => ⟨S16x128, .f32⟩
  | .hbm, ⟨33, _⟩ => ⟨S16x128, .f32⟩
  | .hbm, ⟨34, _⟩ => ⟨S_, .f32⟩
  | .hbm, ⟨35, _⟩ => ⟨S16x128, .f32⟩
  | .hbm, ⟨36, _⟩ => ⟨S16x128, .f32⟩
  | .hbm, ⟨37, _⟩ => ⟨S500000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .i32⟩
  | .local _ .vmem, ⟨3, _⟩ => ⟨S5000x1, .i32⟩
  | .local _ .vmem, ⟨4, _⟩ => ⟨S1x16x128, .f32⟩
  | .local _ .vmem, ⟨5, _⟩ => ⟨S1x16x128, .f32⟩
  | .local _ .vmem, ⟨6, _⟩ => ⟨S1x16x1, .f32⟩
  | .local _ .vmem, ⟨7, _⟩ => ⟨S1x16x1, .f32⟩
  | .local _ .vmem, ⟨8, _⟩ => ⟨S5000x128, .f32⟩
  | .local _ .vmem, ⟨9, _⟩ => ⟨S5000x128, .f32⟩
  | .local _ .vmem, ⟨10, _⟩ => ⟨S5000x1, .i32⟩
  | .local _ .vmem, ⟨11, _⟩ => ⟨S5000x1, .i32⟩
  | .local _ .vmem, ⟨12, _⟩ => ⟨S16x128, .f32⟩
  | .local _ .vmem, ⟨13, _⟩ => ⟨S5000x128, .f32⟩
  | .local _ .vmem, ⟨14, _⟩ => ⟨S5000x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_cst : Ref sig .tc := ⟨.hbm, 22, rfl⟩
abbrev main_call0_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S500000_S500000x1 : S500000.ShapeCasts S500000x1
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  shapeCasts_S16x128_S1x16x128 : S16x128.ShapeCasts S1x16x128
  inb_S1x16x1_S1x16x1_0_0_0 : ∀ a, (![0, 0, 0] : Fin 3 → Nat) a + S1x16x1.size a ≤ S1x16x1.size a
  h_S1x16x1 : 0 < S1x16x1.numel
  shapeCasts_S1x16x1_S16x1 : S1x16x1.ShapeCasts S16x1
  shapeCasts_S16x1_S1x16x1 : S16x1.ShapeCasts S1x16x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x16_d1_w32 : S5000x16.Iotas .tc 32 [1]
  broadcasts_S5000x1_S5000x16 : S5000x1.Broadcasts S5000x16
  natLt_1_32 : 1 < 32
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  reduces_S5000x16_S16 : S5000x16.Reduces [0] S16
  shapeCasts_S16_S1x16 : S16.ShapeCasts S1x16
  transposes_S1x16_p1_0_S16x1 : S1x16.Transposes [1, 0] S16x1
  reducesTo_S2x16x128_S16x128_d0 : S2x16x128.ReducesTo [0] S16x128
  h_S_ : 0 < S_.numel
  reducesTo_S2x16x1_S16x1_d0 : S2x16x1.ReducesTo [0] S16x1
  bcast_S_S16x1 : S_.BroadcastsInDim S16x1 (![] : Fin 0 → Fin S16x1.rank)
  bcast_S16x1_S16x128_0_1 : S16x1.BroadcastsInDim S16x128 (![0, 1] : Fin 2 → Fin S16x128.rank)
  bcast_S8_S1x8_1 : S8.BroadcastsInDim S1x8 (![1] : Fin 1 → Fin S1x8.rank)
  bcast_S1x8_S16x8_0_1 : S1x8.BroadcastsInDim S16x8 (![0, 1] : Fin 2 → Fin S16x8.rank)
  bcast_S_S16x8 : S_.BroadcastsInDim S16x8 (![] : Fin 0 → Fin S16x8.rank)
  bcast_S128_S1x128_1 : S128.BroadcastsInDim S1x128 (![1] : Fin 1 → Fin S1x128.rank)
  bcast_S1x128_S16x128_0_1 : S1x128.BroadcastsInDim S16x128 (![0, 1] : Fin 2 → Fin S16x128.rank)
  bcast_S_S16x128 : S_.BroadcastsInDim S16x128 (![] : Fin 0 → Fin S16x128.rank)
  inb_S16x128_S16x128_0_0 : ∀ a, (![0, 0] : Fin 2 → Nat) a + S16x128.size a ≤ S16x128.size a
  h_S16x128 : 0 < S16x128.numel
  shapeCasts_S16x128_S16x128 : S16x128.ShapeCasts S16x128
  dot_S5000x16_S5000x128_S16x128_0_0_1_1_n_n_wf : DotDims.WF S5000x16 S5000x128 S16x128 [0] [0] [1] [1] [] []
  dot_S16x128_S128x8_S16x8_1_0_0_1_n_n_wf : DotDims.WF S16x128 S128x8 S16x8 [1] [0] [0] [1] [] []
  dot_S16x8_S8x128_S16x128_1_0_0_1_n_n_wf : DotDims.WF S16x8 S8x128 S16x128 [1] [0] [0] [1] [] []
  dot_S5000x16_S16x128_S5000x128_1_0_0_1_n_n_wf : DotDims.WF S5000x16 S16x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S500000x1.size a
  hwx0_1 : ∀ i : grid0.Coords, EltTy.bits .i32 = 32 ∨ (Rect.block (s := S500000x1) S5000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x128.size a ≤ S2x16x128.size a
  hwx0_2 : ∀ i : grid0.Coords, EltTy.bits .f32 = 32 ∨ (Rect.block (s := S2x16x128) S1x16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x1.size a ≤ S2x16x1.size a
  hwx0_3 : ∀ i : grid0.Coords, EltTy.bits .f32 = 32 ∨ (Rect.block (s := S2x16x1) S1x16x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S500000x128.size a
  hwx1_0 : ∀ i : grid1.Coords, EltTy.bits .f32 = 32 ∨ (Rect.block (s := S500000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S500000x1.size a
  hwx1_1 : ∀ i : grid1.Coords, EltTy.bits .i32 = 32 ∨ (Rect.block (s := S500000x1) S5000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x128.size a ≤ S16x128.size a
  hwx1_2 : ∀ i : grid1.Coords, EltTy.bits .f32 = 32 ∨ (Rect.block (s := S16x128) S16x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S500000x128.size a
  hwx1_3 : ∀ i : grid1.Coords, EltTy.bits .f32 = 32 ∨ (Rect.block (s := S500000x128) S5000x128.size (cc1_transform_3 i) (hinb1_3 i)).WholeWords (EltTy.packing .f32)

variable [Facts₀]

def dot_S5000x16_S5000x128_S16x128_0_0_1_1_n_n : DotDims S5000x16 S5000x128 S16x128 where
  lhsContracting := [0]
  rhsContracting := [0]
  lhsNonContracting := [1]
  rhsNonContracting := [1]
  lhsBatch := []
  rhsBatch := []
  wf := dot_S5000x16_S5000x128_S16x128_0_0_1_1_n_n_wf
def dot_S16x128_S128x8_S16x8_1_0_0_1_n_n : DotDims S16x128 S128x8 S16x8 where
  lhsContracting := [1]
  rhsContracting := [0]
  lhsNonContracting := [0]
  rhsNonContracting := [1]
  lhsBatch := []
  rhsBatch := []
  wf := dot_S16x128_S128x8_S16x8_1_0_0_1_n_n_wf
def dot_S16x8_S8x128_S16x128_1_0_0_1_n_n : DotDims S16x8 S8x128 S16x128 where
  lhsContracting := [1]
  rhsContracting := [0]
  lhsNonContracting := [0]
  rhsNonContracting := [1]
  lhsBatch := []
  rhsBatch := []
  wf := dot_S16x8_S8x128_S16x128_1_0_0_1_n_n_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x16x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x16x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S16x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S500000x128 : Shape := ⟨2, ![500000, 128]⟩
abbrev S500000 : Shape := ⟨1, ![500000]⟩
abbrev S128x8 : Shape := ⟨2, ![128, 8]⟩
abbrev S8 : Shape := ⟨1, ![8]⟩
abbrev S8x128 : Shape := ⟨2, ![8, 128]⟩
abbrev S128 : Shape := ⟨1, ![128]⟩
abbrev S_ : Shape := ⟨0, ![]⟩
abbrev S16x128 : Shape := ⟨2, ![16, 128]⟩
abbrev S500000x1 : Shape := ⟨2, ![500000, 1]⟩
abbrev S16 : Shape := ⟨1, ![16]⟩
abbrev S16x1 : Shape := ⟨2, ![16, 1]⟩
abbrev S16x8 : Shape := ⟨2, ![16, 8]⟩
abbrev S1x8 : Shape := ⟨2, ![1, 8]⟩
abbrev S1x128 : Shape := ⟨2, ![1, 128]⟩

abbrev nBuf : Space → Nat
  | .hbm => 51
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000, .i32⟩
  | .hbm, ⟨2, _⟩ => ⟨S128x8, .f32⟩
  | .hbm, ⟨3, _⟩ => ⟨S8, .f32⟩
  | .hbm, ⟨4, _⟩ => ⟨S8x128, .f32⟩
  | .hbm, ⟨5, _⟩ => ⟨S128, .f32⟩
  | .hbm, ⟨6, _⟩ => ⟨S_, .f32⟩
  | .hbm, ⟨7, _⟩ => ⟨S16x128, .f32⟩
  | .hbm, ⟨8, _⟩ => ⟨S500000x1, .i32⟩
  | .hbm, ⟨9, _⟩ => ⟨S16x128, .f32⟩
  | .hbm, ⟨10, _⟩ => ⟨S_, .f32⟩
  | .hbm, ⟨11, _⟩ => ⟨S500000, .f32⟩
  | .hbm, ⟨12, _⟩ => ⟨S_, .f32⟩
  | .hbm, ⟨13, _⟩ => ⟨S16, .f32⟩
  | .hbm, ⟨14, _⟩ => ⟨S500000x1, .i32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S16x1, .f32⟩
  | .hbm, ⟨20, _⟩ => ⟨S16x128, .f32⟩
  | .hbm, ⟨21, _⟩ => ⟨S16x128, .f32⟩
  | .hbm, ⟨22, _⟩ => ⟨S16x8, .f32⟩
  | .hbm, ⟨23, _⟩ => ⟨S1x8, .f32⟩
  | .hbm, ⟨24, _⟩ => ⟨S16x8, .f32⟩
  | .hbm, ⟨25, _⟩ => ⟨S16x8, .f32⟩
  | .hbm, ⟨26, _⟩ => ⟨S_, .f32⟩
  | .hbm, ⟨27, _⟩ => ⟨S16x8, .f32⟩
  | .hbm, ⟨28, _⟩ => ⟨S16x8, .f32⟩
  | .hbm, ⟨29, _⟩ => ⟨S16x128, .f32⟩
  | .hbm, ⟨30, _⟩ => ⟨S1x128, .f32⟩
  | .hbm, ⟨31, _⟩ => ⟨S16x128, .f32⟩
  | .hbm, ⟨32, _⟩ => ⟨S16x128, .f32⟩
  | .hbm, ⟨33, _⟩ => ⟨S16x128, .f32⟩
  | .hbm, ⟨34, _⟩ => ⟨S16x128, .f32⟩
  | .hbm, ⟨35, _⟩ => ⟨S_, .f32⟩
  | .hbm, ⟨36, _⟩ => ⟨S16x128, .f32⟩
  | .hbm, ⟨37, _⟩ => ⟨S16x128, .f32⟩
  | .hbm, ⟨38, _⟩ => ⟨S_, .f32⟩
  | .hbm, ⟨39, _⟩ => ⟨S16x128, .f32⟩
  | .hbm, ⟨40, _⟩ => ⟨S16x128, .f32⟩
  | .hbm, ⟨41, _⟩ => ⟨S_, .i32⟩
  | .hbm, ⟨42, _⟩ => ⟨S500000, .i32⟩
  | .hbm, ⟨43, _⟩ => ⟨S500000, .i1⟩
  | .hbm, ⟨44, _⟩ => ⟨S_, .i32⟩
  | .hbm, ⟨45, _⟩ => ⟨S500000, .i32⟩
  | .hbm, ⟨46, _⟩ => ⟨S500000, .i32⟩
  | .hbm, ⟨47, _⟩ => ⟨S500000, .i32⟩
  | .hbm, ⟨48, _⟩ => ⟨S500000x1, .i32⟩
  | .hbm, ⟨49, _⟩ => ⟨S500000x128, .f32⟩
  | .hbm, ⟨50, _⟩ => ⟨S500000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_c : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S_S16x128 : S_.BroadcastsInDim S16x128 (![] : Fin 0 → Fin S16x128.rank)
  bcast_S500000_S500000x1_0 : S500000.BroadcastsInDim S500000x1 (![0] : Fin 1 → Fin S500000x1.rank)
  bcast_S_S500000 : S_.BroadcastsInDim S500000 (![] : Fin 0 → Fin S500000.rank)
  bcast_S_S16 : S_.BroadcastsInDim S16 (![] : Fin 0 → Fin S16.rank)
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  bcast_S8_S1x8_1 : S8.BroadcastsInDim S1x8 (![1] : Fin 1 → Fin S1x8.rank)
  bcast_S1x8_S16x8_0_1 : S1x8.BroadcastsInDim S16x8 (![0, 1] : Fin 2 → Fin S16x8.rank)
  bcast_S_S16x8 : S_.BroadcastsInDim S16x8 (![] : Fin 0 → Fin S16x8.rank)
  bcast_S128_S1x128_1 : S128.BroadcastsInDim S1x128 (![1] : Fin 1 → Fin S1x128.rank)
  bcast_S1x128_S16x128_0_1 : S1x128.BroadcastsInDim S16x128 (![0, 1] : Fin 2 → Fin S16x128.rank)
  scatter_S16x128_S500000x1_S500000x128_1_0_0_1_wf : ScatterDims.WF S16x128 S500000x1 S500000x128 [1] [0] [0] 1
  scatter_S16_S500000x1_S500000_n_0_0_1_wf : ScatterDims.WF S16 S500000x1 S500000 [] [0] [0] 1
  dot_S16x128_S128x8_S16x8_1_0_0_1_n_n_wf : DotDims.WF S16x128 S128x8 S16x8 [1] [0] [0] [1] [] []
  dot_S16x8_S8x128_S16x128_1_0_0_1_n_n_wf : DotDims.WF S16x8 S8x128 S16x128 [1] [0] [0] [1] [] []
  gather_S16x128_S500000x1_S500000x128_1_0_n_n_0_1_1128_wf : GatherDims.WF S16x128 S500000x1 S500000x128 [1] [0] [] [0] [] 1 ![1, 128]

variable [Facts₀]

def scatter_S16x128_S500000x1_S500000x128_1_0_0_1 : ScatterDims S16x128 S500000x1 S500000x128 where
  updateWindowDims := [1]
  insertedWindowDims := [0]
  scatterDimsToOperandDims := [0]
  indexVectorDim := 1
  wf := scatter_S16x128_S500000x1_S500000x128_1_0_0_1_wf
def scatter_S16_S500000x1_S500000_n_0_0_1 : ScatterDims S16 S500000x1 S500000 where
  updateWindowDims := []
  insertedWindowDims := [0]
  scatterDimsToOperandDims := [0]
  indexVectorDim := 1
  wf := scatter_S16_S500000x1_S500000_n_0_0_1_wf
def dot_S16x128_S128x8_S16x8_1_0_0_1_n_n : DotDims S16x128 S128x8 S16x8 where
  lhsContracting := [1]
  rhsContracting := [0]
  lhsNonContracting := [0]
  rhsNonContracting := [1]
  lhsBatch := []
  rhsBatch := []
  wf := dot_S16x128_S128x8_S16x8_1_0_0_1_n_n_wf
def dot_S16x8_S8x128_S16x128_1_0_0_1_n_n : DotDims S16x8 S8x128 S16x128 where
  lhsContracting := [1]
  rhsContracting := [0]
  lhsNonContracting := [0]
  rhsNonContracting := [1]
  lhsBatch := []
  rhsBatch := []
  wf := dot_S16x8_S8x128_S16x128_1_0_0_1_n_n_wf
def gather_S16x128_S500000x1_S500000x128_1_0_n_n_0_1_1128 : GatherDims S16x128 S500000x1 S500000x128 where
  offsetDims := [1]
  collapsedSliceDims := [0]
  operandBatchingDims := []
  startIndicesBatchingDims := []
  startIndexMap := [0]
  indexVectorDim := 1
  sliceSizes := ![1, 128]
  wf := gather_S16x128_S500000x1_S500000x128_1_0_n_n_0_1_1128_wf

class Facts : Prop extends Facts₀ where

variable [Facts]
-- ==== Proof.Host.lean ====
/-
  The kernel program's host operations between its two pallas_calls, as pure functions of the buffers they read:
  the two core halves' partial sums and counts added up, the mean's denominator `max (count, 1)` broadcast along the
  lanes, the two-layer network and the logistic function that give the gate. Each stretch of host operations is read
  back at the one buffer the next stretch (or the second pallas_call) consumes; every other buffer a stretch leaves
  as it found it.
-/
import proofs.«427693_j21053929685330_3_alg».proof.Defs
import proofs.«427693_j21053929685330_3_alg».proof.Proof.Gen.KernelIdeal.Frame
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Host

open Cert.KernelIdeal Cert.KernelIdeal.Gen

variable {F : FTy → Type} [FloatOps F]

/-- The two core halves' partial sums added up. -/
def sumsOf (p : FVec F S2x16x128 .f32) : FVec F S16x128 .f32 :=
  Host.reduceAdd p (constant S_ .f32 0x00000000#32) reducesTo_S2x16x128_S16x128_d0 h_S_

/-- The two core halves' partial counts added up, bounded below by one, and broadcast along the lanes. -/
def denOf (q : FVec F S2x16x1 .f32) : FVec F S16x128 .f32 :=
  broadcastInDim S16x128 ![0, 1] bcast_S16x1_S16x128_0_1
    (maximumf (Host.reduceAdd q (constant S_ .f32 0x00000000#32) reducesTo_S2x16x1_S16x1_d0 h_S_)
      (broadcastInDim S16x1 ![] bcast_S_S16x1 (constant S_ .f32 0x3F800000#32)))

/-- The first layer before its rectifier: the segment means times `W1`, plus `b1`. -/
def hidOf (sums den : FVec F S16x128 .f32) (w1 : FVec F S128x8 .f32) (b1 : FVec F S8 .f32) : FVec F S16x8 .f32 :=
  addf (Host.dotGeneral dot_S16x128_S128x8_S16x8_1_0_0_1_n_n none (Host.divf sums den) w1)
    (broadcastInDim S16x8 ![0, 1] bcast_S1x8_S16x8_0_1 (broadcastInDim S1x8 ![1] bcast_S8_S1x8_1 b1))

/-- The rectifier. -/
def reluOf (a : FVec F S16x8 .f32) : FVec F S16x8 .f32 :=
  maximumf a (broadcastInDim S16x8 ![] bcast_S_S16x8 (constant S_ .f32 0x00000000#32))

/-- The second layer and the logistic function: `1 / (1 + exp (-(h · W2 + b2)))`. -/
def gateOf (h : FVec F S16x8 .f32) (w2 : FVec F S8x128 .f32) (b2 : FVec F S128 .f32) : FVec F S16x128 .f32 :=
  Host.divf (broadcastInDim S16x128 ![] bcast_S_S16x128 (constant S_ .f32 0x3F800000#32))
    (addf (broadcastInDim S16x128 ![] bcast_S_S16x128 (constant S_ .f32 0x3F800000#32))
      (Host.exp (Host.negf (addf (Host.dotGeneral dot_S16x8_S8x128_S16x128_1_0_0_1_n_n none h w2)
        (broadcastInDim S16x128 ![0, 1] bcast_S1x128_S16x128_0_1 (broadcastInDim S1x128 ![1] bcast_S128_S1x128_1 b2))))))

variable (W : Valuation τ sig (Elt F))

/-! ## The stretch before the first pallas_call: the segment ids reshaped to a column -/

theorem pre_v0 : StableHlo.after hostOps0 W (Proc.devRef .tc main_v0)
    = shapeCast S500000x1 (W (Proc.devRef .tc main_arg1)) shapeCasts_S500000_S500000x1 := by
  after_results; rfl
theorem pre_arg0 : StableHlo.after hostOps0 W (Proc.devRef .tc main_arg0) = W (Proc.devRef .tc main_arg0) := by after_results
theorem pre_arg2 : StableHlo.after hostOps0 W (Proc.devRef .tc main_arg2) = W (Proc.devRef .tc main_arg2) := by after_results
theorem pre_arg3 : StableHlo.after hostOps0 W (Proc.devRef .tc main_arg3) = W (Proc.devRef .tc main_arg3) := by after_results
theorem pre_arg4 : StableHlo.after hostOps0 W (Proc.devRef .tc main_arg4) = W (Proc.devRef .tc main_arg4) := by after_results
theorem pre_arg5 : StableHlo.after hostOps0 W (Proc.devRef .tc main_arg5) = W (Proc.devRef .tc main_arg5) := by after_results

/-! ## The first stretch between the calls: up to the first layer's sum -/

theorem mid0_v11 : StableHlo.after hostOps1 W (Proc.devRef .tc main_v11)
    = hidOf (sumsOf (W (Proc.devRef .tc main_v1_0))) (denOf (W (Proc.devRef .tc main_v1_1)))
        (W (Proc.devRef .tc main_arg2)) (W (Proc.devRef .tc main_arg3)) := by
  after_results_simp; rfl
theorem mid0_arg0 : StableHlo.after hostOps1 W (Proc.devRef .tc main_arg0) = W (Proc.devRef .tc main_arg0) := by after_results_simp
theorem mid0_v0 : StableHlo.after hostOps1 W (Proc.devRef .tc main_v0) = W (Proc.devRef .tc main_v0) := by after_results_simp
theorem mid0_arg4 : StableHlo.after hostOps1 W (Proc.devRef .tc main_arg4) = W (Proc.devRef .tc main_arg4) := by after_results_simp
theorem mid0_arg5 : StableHlo.after hostOps1 W (Proc.devRef .tc main_arg5) = W (Proc.devRef .tc main_arg5) := by after_results_simp

/-! ## The rectifier's stretch -/

theorem mid1_v12 : StableHlo.after hostOps1_1 W (Proc.devRef .tc main_v12) = reluOf (W (Proc.devRef .tc main_v11)) := by
  after_results_simp; rfl
theorem mid1_arg0 : StableHlo.after hostOps1_1 W (Proc.devRef .tc main_arg0) = W (Proc.devRef .tc main_arg0) := by after_results_simp
theorem mid1_v0 : StableHlo.after hostOps1_1 W (Proc.devRef .tc main_v0) = W (Proc.devRef .tc main_v0) := by after_results_simp
theorem mid1_arg4 : StableHlo.after hostOps1_1 W (Proc.devRef .tc main_arg4) = W (Proc.devRef .tc main_arg4) := by after_results_simp
theorem mid1_arg5 : StableHlo.after hostOps1_1 W (Proc.devRef .tc main_arg5) = W (Proc.devRef .tc main_arg5) := by after_results_simp

/-! ## The last stretch: the second layer and the logistic function -/

theorem mid2_v22 : StableHlo.after hostOps1_2 W (Proc.devRef .tc main_v22)
    = gateOf (W (Proc.devRef .tc main_v12)) (W (Proc.devRef .tc main_arg4)) (W (Proc.devRef .tc main_arg5)) := by
  after_results_simp; rfl
theorem mid2_arg0 : StableHlo.after hostOps1_2 W (Proc.devRef .tc main_arg0) = W (Proc.devRef .tc main_arg0) := by after_results_simp
theorem mid2_v0 : StableHlo.after hostOps1_2 W (Proc.devRef .tc main_v0) = W (Proc.devRef .tc main_v0) := by after_results_simp

end Cert.KernelIdeal.Host

end
-- ==== Proof.Chain.lean ====
/-
  The buffers along @main's boundaries: what the first pallas_call finds (the features as launched, the segment ids as
  a column), what the second finds (the same two, and the gate as the host chain's function of the first call's two
  result arrays and the four parameter arrays as launched), and the program's result as the second call's result array.
-/
import proofs.«427693_j21053929685330_3_alg».proof.Defs
import proofs.«427693_j21053929685330_3_alg».proof.Proof.Gen.KernelIdeal.Frame
import proofs.«427693_j21053929685330_3_alg».proof.Proof.Host

set_option maxRecDepth 16384

noncomputable section

open Idealize.ShloMosaic Idealize.ShloMosaic.TcCoe Idealize.SL.Sem
open Idealize.ShloMosaic.Pipeline (Dat)

namespace Cert.KernelIdeal.Chain

open Cert.KernelIdeal Cert.KernelIdeal.Gen Cert.KernelIdeal.Host

variable {F : FTy → Type} [FloatOps F]
variable (m : (ℓ : Loc nD τ sig) → Buf (Elt F) ℓ) (ρ : Dev nD → PrngReg)

/-! ## At the first call's entry -/

theorem V1_arg0 (c : Dev nD) : V1 m ρ c main_arg0 = m ((c : Thread nD τ).loc main_arg0) := pre_arg0 (W0 m ρ c)
theorem V1_v0 (c : Dev nD) :
    V1 m ρ c main_v0 = shapeCast S500000x1 (m ((c : Thread nD τ).loc main_arg1)) shapeCasts_S500000_S500000x1 :=
  pre_v0 (W0 m ρ c)

/-! ## At the first call's exit -/

theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (V1_arg0 m ρ c)
theorem W2_v0 (c : Dev nD) :
    W2 m ρ c (Proc.devRef .tc main_v0) = shapeCast S500000x1 (m ((c : Thread nD τ).loc main_arg1)) shapeCasts_S500000_S500000x1 :=
  ((W2_arr m ρ c 1).trans (((dat0 (V1 m ρ) c).arrAt_in 1 rfl _).trans (A_eq0 (V1 m ρ) c 1))).trans (V1_v0 m ρ c)
theorem W2_v1_0 (c : Dev nD) : W2 m ρ c (Proc.devRef .tc main_v1_0) = (dat0 (V1 m ρ) c).arrAt 2 cfg0.N := W2_arr m ρ c 2
theorem W2_v1_1 (c : Dev nD) : W2 m ρ c (Proc.devRef .tc main_v1_1) = (dat0 (V1 m ρ) c).arrAt 3 cfg0.N := W2_arr m ρ c 3
theorem W2_arg2 (c : Dev nD) : W2 m ρ c (Proc.devRef .tc main_arg2) = m ((c : Thread nD τ).loc main_arg2) :=
  (W2_of_ne m ρ c main_arg2 (by decide)).trans (pre_arg2 (W0 m ρ c))
theorem W2_arg3 (c : Dev nD) : W2 m ρ c (Proc.devRef .tc main_arg3) = m ((c : Thread nD τ).loc main_arg3) :=
  (W2_of_ne m ρ c main_arg3 (by decide)).trans (pre_arg3 (W0 m ρ c))
theorem W2_arg4 (c : Dev nD) : W2 m ρ c (Proc.devRef .tc main_arg4) = m ((c : Thread nD τ).loc main_arg4) :=
  (W2_of_ne m ρ c main_arg4 (by decide)).trans (pre_arg4 (W0 m ρ c))
theorem W2_arg5 (c : Dev nD) : W2 m ρ c (Proc.devRef .tc main_arg5) = m ((c : Thread nD τ).loc main_arg5) :=
  (W2_of_ne m ρ c main_arg5 (by decide)).trans (pre_arg5 (W0 m ρ c))

/-! ## At the second call's entry -/

theorem V5_arg0 (c : Dev nD) : V5 m ρ c main_arg0 = m ((c : Thread nD τ).loc main_arg0) :=
  (mid2_arg0 (W4 m ρ c)).trans ((mid1_arg0 (W3 m ρ c)).trans ((mid0_arg0 (W2 m ρ c)).trans (W2_arg0 m ρ c)))
theorem V5_v0 (c : Dev nD) :
    V5 m ρ c main_v0 = shapeCast S500000x1 (m ((c : Thread nD τ).loc main_arg1)) shapeCasts_S500000_S500000x1 :=
  (mid2_v0 (W4 m ρ c)).trans ((mid1_v0 (W3 m ρ c)).trans ((mid0_v0 (W2 m ρ c)).trans (W2_v0 m ρ c)))

/-- The gate the second call finds. -/
theorem V5_v22 (c : Dev nD) : V5 m ρ c main_v22
    = gateOf (reluOf (hidOf (sumsOf ((dat0 (V1 m ρ) c).arrAt 2 cfg0.N)) (denOf ((dat0 (V1 m ρ) c).arrAt 3 cfg0.N))
        (m ((c : Thread nD τ).loc main_arg2)) (m ((c : Thread nD τ).loc main_arg3))))
        (m ((c : Thread nD τ).loc main_arg4)) (m ((c : Thread nD τ).loc main_arg5)) := by
  refine (mid2_v22 (W4 m ρ c)).trans ?_
  rw [show W4 m ρ c (Proc.devRef .tc main_v12) = _ from mid1_v12 (W3 m ρ c),
    show W3 m ρ c (Proc.devRef .tc main_v11) = _ from mid0_v11 (W2 m ρ c),
    show W4 m ρ c (Proc.devRef .tc main_arg4) = _ from (mid1_arg4 (W3 m ρ c)).trans ((mid0_arg4 (W2 m ρ c)).trans (W2_arg4 m ρ c)),
    show W4 m ρ c (Proc.devRef .tc main_arg5) = _ from (mid1_arg5 (W3 m ρ c)).trans ((mid0_arg5 (W2 m ρ c)).trans (W2_arg5 m ρ c)),
    W2_v1_0, W2_v1_1, W2_arg2, W2_arg3]

/-! ## The result -/

theorem W6_v23 (c : Dev nD) : W6 m ρ c (Proc.devRef .tc main_v23) = (dat1 (V5 m ρ) c).arrAt 3 cfg1.N := W6_arr m ρ c 3

end Cert.KernelIdeal.Chain

end
-- ==== Proof.Spec.lean ====
/-
  The arithmetic both programs share, stated once over plain functions of row and lane numbers.

  A row `r` of the 500000 carries a segment word `I r`; `hot w b` is the one-hot entry, `1` when the word `w`
  is the segment number `b` and `0` otherwise. A segment's sum over a stretch of rows is the sum of
  `hot (I r) b * X r l`; its count is the sum of `hot (I r) b`. Row numbers are naturals, so that stretches of rows
  concatenate by `Finset.sum_range_add`; a row number past the array contributes `0`.
  `pick`: against a one-hot row whose word is one of the sixteen segment numbers, the sum over the segments of
  `hot w k * g k` is `g` at that segment — on the extended reals, with no finiteness needed, since `0 * a = 0`
  and `1 * a = a` hold for every extended real `a`.
-/
import Idealize.ShloMosaic.PureOps.Ideal
import Mathlib.Algebra.BigOperators.Fin
import Mathlib.Algebra.BigOperators.Intervals

noncomputable section

open scoped BigOperators

namespace Cert.Spec

/-- The one-hot entry: `1` when the word is the segment number, else `0`. -/
def hot (w : BitVec 32) (b : ℕ) : EReal := if w = BitVec.ofNat 32 b then 1 else 0

theorem hot_eq (w : BitVec 32) (b : ℕ) (h : w = BitVec.ofNat 32 b) : hot w b = 1 := if_pos h
theorem hot_ne (w : BitVec 32) (b : ℕ) (h : w ≠ BitVec.ofNat 32 b) : hot w b = 0 := if_neg h

/-- Row `r`'s share of segment `b`'s sum at lane `l`. -/
def term (X : Fin 500000 → Fin 128 → EReal) (I : Fin 500000 → BitVec 32) (b : Fin 16) (l : Fin 128) (r : ℕ) : EReal :=
  if h : r < 500000 then hot (I ⟨r, h⟩) b.val * X ⟨r, h⟩ l else 0

/-- Row `r`'s share of segment `b`'s count. -/
def cterm (I : Fin 500000 → BitVec 32) (b : Fin 16) (r : ℕ) : EReal :=
  if h : r < 500000 then hot (I ⟨r, h⟩) b.val else 0

theorem term_lt (X : Fin 500000 → Fin 128 → EReal) (I : Fin 500000 → BitVec 32) (b : Fin 16) (l : Fin 128) (r : ℕ)
    (h : r < 500000) : term X I b l r = hot (I ⟨r, h⟩) b.val * X ⟨r, h⟩ l := dif_pos h
theorem cterm_lt (I : Fin 500000 → BitVec 32) (b : Fin 16) (r : ℕ) (h : r < 500000) :
    cterm I b r = hot (I ⟨r, h⟩) b.val := dif_pos h

/-- A word in `[0, 16)` read signed is the 32-bit word of its own value. -/
theorem eq_ofNat_of_range (w : BitVec 32) (hw : 0 ≤ w.toInt ∧ w.toInt < 16) : w = BitVec.ofNat 32 w.toInt.toNat := by
  have h := BitVec.toInt_eq_toNat_cond w
  have hlt := w.isLt
  apply BitVec.eq_of_toNat_eq
  rw [BitVec.toNat_ofNat]
  split_ifs at h <;> omega

/-- Two segment numbers below sixteen with the same 32-bit word are equal. -/
theorem ofNat_inj16 (a b : ℕ) (ha : a < 16) (hb : b < 16) (h : BitVec.ofNat 32 a = BitVec.ofNat 32 b) : a = b := by
  have h' := congrArg BitVec.toNat h
  rw [BitVec.toNat_ofNat, BitVec.toNat_ofNat] at h'
  omega

/-- The one-hot row of a word in range picks its entry. -/
theorem pick (g : Fin 16 → EReal) (w : BitVec 32) (hw : 0 ≤ w.toInt ∧ w.toInt < 16) :
    ∑ k : Fin 16, hot w k.val * g k = g ⟨w.toInt.toNat, by omega⟩ := by
  have hn : w.toInt.toNat < 16 := by omega
  rw [Finset.sum_eq_single (⟨w.toInt.toNat, hn⟩ : Fin 16)]
  · rw [hot_eq w _ (eq_ofNat_of_range w hw), one_mul]
  · intro k _ hk
    rw [hot_ne w k.val, zero_mul]
    intro hw'
    apply hk
    apply Fin.ext
    exact (ofNat_inj16 _ _ hn k.isLt ((eq_ofNat_of_range w hw).symm.trans hw')).symm
  · intro h; exact absurd (Finset.mem_univ _) h

end Cert.Spec

end
-- ==== Proof.Seg.lean ====
/-
  The first pallas_call (the segment sums), read as values at the extended reals.
-/
import proofs.«427693_j21053929685330_3_alg».proof.Defs
import proofs.«427693_j21053929685330_3_alg».proof.Proof.Gen.KernelIdeal.Frame
import proofs.«427693_j21053929685330_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Seg

open Cert.KernelIdeal Cert.KernelIdeal.Gen

/-- The one-hot entry a tile builds at row `k`, segment `b`: the comparison of the row's word with the
    segment number, widened and converted, is `1` when they agree and `0` otherwise. -/
theorem onehot_apply (v3 : Vec Ideal S5000x1 .i32) (k : Fin 5000) (b : Fin 16) :
    k0_pay3 (F := Ideal) v3 (ix2 k b) = Cert.Spec.hot (v3 (ix2 k 0)) b.val := by
  unfold k0_pay3
  dsimp only
  have e6 : broadcastTo S5000x16 (shapeCast S5000x1 v3 shapeCasts_S5000x1_S5000x1) broadcasts_S5000x1_S5000x16 (ix2 k b)
      = v3 (ix2 k 0) := by
    rw [shapeCast_self]
    exact broadcastTo_apply v3 _ (ix2 k b) (ix2 k 0) (fun a => match a with
      | ⟨0, _⟩ => by show k.val = if (5000 : Nat) = 1 then 0 else k.val; rw [if_neg (by decide)]
      | ⟨1, _⟩ => by show 0 = if (1 : Nat) = 1 then 0 else b.val; rw [if_pos rfl])
  have e5 : iota .tc S5000x16 32 [1] iota_S5000x16_d1_w32 (ix2 k b) = BitVec.ofNat 32 b.val :=
    iota_single_apply .tc S5000x16 32 1 _ (ix2 k b)
  show FloatOps.sitofp (F := Ideal) .f32 ((IntOp.cmpi .eq
      (broadcastTo S5000x16 (shapeCast S5000x1 v3 shapeCasts_S5000x1_S5000x1) broadcasts_S5000x1_S5000x16 (ix2 k b))
      (iota .tc S5000x16 32 [1] iota_S5000x16_d1_w32 (ix2 k b))).setWidth 32) = _
  rw [e6, e5]
  unfold Cert.Spec.hot IntOp.cmpi
  show ((((BitVec.ofBool (v3 (ix2 k 0) == BitVec.ofNat 32 b.val)).setWidth 32).toInt : ℝ) : EReal) = _
  by_cases h : v3 (ix2 k 0) = BitVec.ofNat 32 b.val
  · rw [if_pos h, h, beq_self_eq_true]
    have e : ((BitVec.ofBool true).setWidth 32).toInt = 1 := by decide
    rw [e]; norm_num
  · rw [if_neg h, beq_eq_false_iff_ne.mpr h]
    have e : ((BitVec.ofBool false).setWidth 32).toInt = 0 := by decide
    rw [e]; norm_num

/-! ## The tile's product: which entries of the two operands meet -/

theorem lhs_tile_0 (i : S16x128.Idx) (q : dot_S5000x16_S5000x128_S16x128_0_0_1_1_n_n.contr.Idx) :
    (dot_S5000x16_S5000x128_S16x128_0_0_1_1_n_n.lhsIdx i q 0).val = (q ⟨0, by decide⟩).val :=
  dot_S5000x16_S5000x128_S16x128_0_0_1_1_n_n.lhsIdx_val_of_single rfl i q
theorem lhs_tile_1 (i : S16x128.Idx) (q : dot_S5000x16_S5000x128_S16x128_0_0_1_1_n_n.contr.Idx) :
    (dot_S5000x16_S5000x128_S16x128_0_0_1_1_n_n.lhsIdx i q 1).val = (i 0).val := by
  unfold DotDims.lhsIdx
  rw [dif_neg (show ¬(1 : Fin S5000x16.rank) ∈ dot_S5000x16_S5000x128_S16x128_0_0_1_1_n_n.lhsBatch by decide), dif_pos (show (1 : Fin S5000x16.rank) ∈ dot_S5000x16_S5000x128_S16x128_0_0_1_1_n_n.lhsNonContracting by decide)]
  rfl
theorem rhs_tile_0 (i : S16x128.Idx) (q : dot_S5000x16_S5000x128_S16x128_0_0_1_1_n_n.contr.Idx) :
    (dot_S5000x16_S5000x128_S16x128_0_0_1_1_n_n.rhsIdx i q 0).val = (q ⟨0, by decide⟩).val :=
  dot_S5000x16_S5000x128_S16x128_0_0_1_1_n_n.rhsIdx_val_of_single rfl i q
theorem rhs_tile_1 (i : S16x128.Idx) (q : dot_S5000x16_S5000x128_S16x128_0_0_1_1_n_n.contr.Idx) :
    (dot_S5000x16_S5000x128_S16x128_0_0_1_1_n_n.rhsIdx i q 1).val = (i 1).val := by
  unfold DotDims.rhsIdx
  rw [dif_neg (show ¬(1 : Fin S5000x128.rank) ∈ dot_S5000x16_S5000x128_S16x128_0_0_1_1_n_n.rhsBatch by decide), dif_pos (show (1 : Fin S5000x128.rank) ∈ dot_S5000x16_S5000x128_S16x128_0_0_1_1_n_n.rhsNonContracting by decide)]
  rfl

/-- The tile's product contracts the ROW axis of both operands: at segment `b`, lane `l` it is the sum over the
    tile's 5000 rows of the left operand at (row, `b`) times the right operand at (row, `l`). -/
theorem tile_matmul_apply (oh : FVec Ideal S5000x16 .bf16) (x : FVec Ideal S5000x128 .bf16) (b : Fin 16) (l : Fin 128) :
    matmul dot_S5000x16_S5000x128_S16x128_0_0_1_1_n_n none oh x (constant (F := Ideal) S16x128 .f32 0x00000000#32) (ix2 b l)
      = ∑ k : Fin 5000, oh (ix2 k b) * x (ix2 k l) := by
  simp only [matmul]
  rw [Ideal.matmul_constant_zero_apply, ← Equiv.sum_comp (contrEquiv1 dot_S5000x16_S5000x128_S16x128_0_0_1_1_n_n 5000 rfl rfl).symm]
  refine Finset.sum_congr rfl fun k _ => ?_
  have hk := contrEquiv1_symm_val dot_S5000x16_S5000x128_S16x128_0_0_1_1_n_n 5000 rfl rfl k
  have el : dot_S5000x16_S5000x128_S16x128_0_0_1_1_n_n.lhsIdx (ix2 b l) ((contrEquiv1 dot_S5000x16_S5000x128_S16x128_0_0_1_1_n_n 5000 rfl rfl).symm k) = ix2 k b := funext fun a => Fin.ext (by
    match a with
    | ⟨0, _⟩ => exact (lhs_tile_0 _ _).trans hk
    | ⟨1, _⟩ => exact lhs_tile_1 _ _)
  have er : dot_S5000x16_S5000x128_S16x128_0_0_1_1_n_n.rhsIdx (ix2 b l) ((contrEquiv1 dot_S5000x16_S5000x128_S16x128_0_0_1_1_n_n 5000 rfl rfl).symm k) = ix2 k l := funext fun a => Fin.ext (by
    match a with
    | ⟨0, _⟩ => exact (rhs_tile_0 _ _).trans hk
    | ⟨1, _⟩ => exact rhs_tile_1 _ _)
  rw [el, er]

/-- What a tile leaves of the sums: the previous contents plus, at segment `b` and lane `l`, the sum over the tile's
    rows of (one-hot entry) × (feature). The narrowing of both operands to the short format changes nothing at the
    extended reals. -/
theorem pay4_apply (v3 : Vec Ideal S5000x1 .i32) (v11 : Vec Ideal S5000x128 .f32) (v14 : Vec Ideal S1x16x128 .f32)
    (b : Fin 16) (l : Fin 128) :
    k0_pay4 (F := Ideal) v3 v11 v14 (ix3 (0 : Fin 1) b l)
      = v14 (ix3 (0 : Fin 1) b l) + ∑ k : Fin 5000, Cert.Spec.hot (v3 (ix2 k 0)) b.val * v11 (ix2 k l) := by
  unfold k0_pay4
  refine (shapeCast_ab_1ab_apply _ shapeCasts_S16x128_S1x16x128 (0 : Fin 1) b l).trans ?_
  show shapeCast S16x128 v14 shapeCasts_S1x16x128_S16x128 (ix2 b l)
      + matmul dot_S5000x16_S5000x128_S16x128_0_0_1_1_n_n none (truncf .bf16 (k0_pay3 (F := Ideal) v3) bitsLt_bf16_f32)
          (truncf .bf16 v11 bitsLt_bf16_f32) (constant (F := Ideal) S16x128 .f32 0x00000000#32) (ix2 b l) = _
  rw [shapeCast_1ab_ab_apply, tile_matmul_apply]
  refine congrArg (v14 (ix3 (0 : Fin 1) b l) + ·) (Finset.sum_congr rfl fun k _ => ?_)
  show k0_pay3 (F := Ideal) v3 (ix2 k b) * v11 (ix2 k l) = _
  rw [onehot_apply]

/-- The reduction's inserted index: row `k` put in front of segment `b`. -/
theorem lift_row (b : Fin 16) (k : Fin 5000) : reduces_S5000x16_S16.lift (ix1 b) k = ix2 k b :=
  funext fun a => match a with | ⟨0, _⟩ => rfl | ⟨1, _⟩ => rfl

/-- The column sums of the one-hot, read at segment `b`. -/
theorem colsum_apply (oh : FVec Ideal S5000x16 .f32) (hφ : FKind.Formats .f32) (hacc : (0x00000000#32 : BitVec 32) = 0x00000000#32) (b : Fin 16) :
    multiReduction .add [0] S16 oh 0x00000000#32 reduces_S5000x16_S16 hφ hacc (ix1 b) = ∑ k : Fin 5000, oh (ix2 k b) := by
  refine (Ideal.multiReduction_add_single oh 0x00000000#32 reduces_S5000x16_S16 hφ hacc (ix1 b)).trans ?_
  exact Finset.sum_congr rfl fun k _ => congrArg oh (lift_row b k)

/-- What a tile leaves of the counts: the previous contents plus, at segment `b`, the number of the tile's rows whose
    word is `b`. -/
theorem pay5_apply (v3 : Vec Ideal S5000x1 .i32) (v23 : Vec Ideal S1x16x1 .f32) (b : Fin 16) :
    k0_pay5 (F := Ideal) v3 v23 (ix3 (0 : Fin 1) b (0 : Fin 1))
      = v23 (ix3 (0 : Fin 1) b (0 : Fin 1)) + ∑ k : Fin 5000, Cert.Spec.hot (v3 (ix2 k 0)) b.val := by
  unfold k0_pay5
  refine (shapeCast_ab_1ab_apply _ shapeCasts_S16x1_S1x16x1 (0 : Fin 1) b (0 : Fin 1)).trans ?_
  show shapeCast S16x1 v23 shapeCasts_S1x16x1_S16x1 (ix2 b (0 : Fin 1))
      + transpose S16x1 [1, 0] (shapeCast S1x16 (multiReduction .add [0] S16 (k0_pay3 (F := Ideal) v3) 0x00000000#32 reduces_S5000x16_S16 (.inl rfl) rfl) shapeCasts_S16_S1x16) transposes_S1x16_p1_0_S16x1 (ix2 b (0 : Fin 1)) = _
  rw [shapeCast_1ab_ab_apply, transpose_ix2_apply, shapeCast_a_1a_apply, colsum_apply]
  exact congrArg (v23 (ix3 (0 : Fin 1) b (0 : Fin 1)) + ·) (Finset.sum_congr rfl fun k _ => onehot_apply v3 k b)

/-! ## What each case of the body leaves in the two accumulators -/

theorem hz3 : (![0, 0, 0] : Fin 3 → Nat) = fun _ => 0 := funext fun a => by fin_cases a <;> rfl
theorem hz2 : (![0, 0] : Fin 2 → Nat) = fun _ => 0 := funext fun a => by fin_cases a <;> rfl

section Pieces
variable {F : FTy → Type} [FloatOps F]

/-- Away from a reset point the sums' buffer ends at the tile's update of what it held. -/
theorem out_B_2 (c : Dev nD) (i : grid0.Coords) (a2 : Memref sig .tc .vmem S5000x128 .f32) (h2 : a2.IsWhole)
    (a3 : Memref sig .tc .vmem S5000x1 .i32) (h3 : a3.IsWhole) (a4 : Memref sig .tc .vmem S1x16x128 .f32) (h4 : a4.IsWhole)
    (a5 : Memref sig .tc .vmem S1x16x1 .f32) (h5 : a5.IsWhole) (hc : ¬cond0_0 i)
    (x0 : Vec F S5000x128 .f32) (x1 : Vec F S5000x1 .i32) (xo2 : Vec F S1x16x128 .f32) (xo3 : Vec F S1x16x1 .f32) :
    out0_B_2 c i a2 h2 a3 h3 a4 h4 a5 h5 hc x0 x1 xo2 xo3 = k0_pay4 x1 x0 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, View.ld_unit_zero (S := S5000x1) hz2,
    View.ld_unit_zero (S := S5000x128) hz2, View.ld_unit_zero (S := S1x16x128) hz3]

/-- Away from a reset point the counts' buffer ends at the tile's update of what it held. -/
theorem out_B_3 (c : Dev nD) (i : grid0.Coords) (a2 : Memref sig .tc .vmem S5000x128 .f32) (h2 : a2.IsWhole)
    (a3 : Memref sig .tc .vmem S5000x1 .i32) (h3 : a3.IsWhole) (a4 : Memref sig .tc .vmem S1x16x128 .f32) (h4 : a4.IsWhole)
    (a5 : Memref sig .tc .vmem S1x16x1 .f32) (h5 : a5.IsWhole) (hc : ¬cond0_0 i)
    (x0 : Vec F S5000x128 .f32) (x1 : Vec F S5000x1 .i32) (xo2 : Vec F S1x16x128 .f32) (xo3 : Vec F S1x16x1 .f32) :
    out0_B_3 c i a2 h2 a3 h3 a4 h4 a5 h5 hc x0 x1 xo2 xo3 = k0_pay5 x1 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h3.read_unread, h5.read_unread, View.ld_unit_zero (S := S5000x1) hz2,
    View.ld_unit_zero (S := S1x16x1) hz3]

/-- At a reset point the sums' buffer is zeroed, read back, and ends at the tile's update of the zero block. -/
theorem out_A_2 (c : Dev nD) (i : grid0.Coords) (a2 : Memref sig .tc .vmem S5000x128 .f32) (h2 : a2.IsWhole)
    (a3 : Memref sig .tc .vmem S5000x1 .i32) (h3 : a3.IsWhole) (a4 : Memref sig .tc .vmem S1x16x128 .f32) (h4 : a4.IsWhole)
    (a5 : Memref sig .tc .vmem S1x16x1 .f32) (h5 : a5.IsWhole) (hc : cond0_0 i)
    (x0 : Vec F S5000x128 .f32) (x1 : Vec F S5000x1 .i32) :
    out0_A_2 c i a2 h2 a3 h3 a4 h4 a5 h5 hc x0 x1 = k0_pay4 x1 x0 (k0_pay1 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x16x128) hz3, View.readCov_unit_zero (S := S1x16x128) _ hz3]
  simp only [View.readAt_eq_ld, h2.read_unread, h3.read_unread, View.ld_unit_zero (S := S5000x1) hz2,
    View.ld_unit_zero (S := S5000x128) hz2]

/-- At a reset point the counts' buffer is zeroed, read back, and ends at the tile's update of the zero block. -/
theorem out_A_3 (c : Dev nD) (i : grid0.Coords) (a2 : Memref sig .tc .vmem S5000x128 .f32) (h2 : a2.IsWhole)
    (a3 : Memref sig .tc .vmem S5000x1 .i32) (h3 : a3.IsWhole) (a4 : Memref sig .tc .vmem S1x16x128 .f32) (h4 : a4.IsWhole)
    (a5 : Memref sig .tc .vmem S1x16x1 .f32) (h5 : a5.IsWhole) (hc : cond0_0 i)
    (x0 : Vec F S5000x128 .f32) (x1 : Vec F S5000x1 .i32) :
    out0_A_3 c i a2 h2 a3 h3 a4 h4 a5 h5 hc x0 x1 = k0_pay5 x1 (k0_pay2 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x16x1) hz3, View.readCov_unit_zero (S := S1x16x1) _ hz3]
  simp only [View.readAt_eq_ld, h3.read_unread, View.ld_unit_zero (S := S5000x1) hz2]

end Pieces

variable (V : (c : Dev nD) → (b : Ref sig .tc) → Buf (Elt Ideal) ((c : Thread nD τ).loc b))

/-- The feature array the region finds, by row and lane. -/
abbrev Xof (c : Dev nD) : Fin 500000 → Fin 128 → EReal := fun r l => V c main_arg0 (ix2 r l)
/-- The segment words the region finds, by row. -/
abbrev Iof (c : Dev nD) : Fin 500000 → BitVec 32 := fun r => V c main_v0 (ix2 r 0)

/-! ## The input tiles are stretches of 5000 rows of the two arrays -/

/-- The tile of features at a point, and the tile of segment words. -/
abbrev xtile (c : Dev nD) (t : Fin cfg0.N) : Vec Ideal S5000x128 .f32 := iblk0 V c 0 t
abbrev wtile (c : Dev nD) (t : Fin cfg0.N) : Vec Ideal S5000x1 .i32 := iblk0 V c 1 t

/-- Point `t` fetches block `t` of both inputs along the rows, and the one block there is along the lanes. -/
theorem in_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem xtile_apply (c : Dev nD) (t : Fin cfg0.N) (k : Fin 5000) (l : Fin 128) (hr : t.val * 5000 + k.val < 500000) :
    xtile V c t (ix2 k l) = Xof V c ⟨t.val * 5000 + k.val, hr⟩ l := by
  unfold xtile iblk0
  rw [View.read_apply]
  show V c main_arg0 _ = V c main_arg0 _
  congr 1
  funext a
  apply Fin.ext
  match a with
  | ⟨0, _⟩ => show win0_0.index t 0 * 5000 + 1 * k.val = t.val * 5000 + k.val; rw [(in_index t).1]; omega
  | ⟨1, _⟩ => show win0_0.index t 1 * 128 + 1 * l.val = l.val; rw [(in_index t).2.1]; omega

theorem wtile_apply (c : Dev nD) (t : Fin cfg0.N) (k : Fin 5000) (hr : t.val * 5000 + k.val < 500000) :
    wtile V c t (ix2 k 0) = Iof V c ⟨t.val * 5000 + k.val, hr⟩ := by
  unfold wtile iblk0
  rw [View.read_apply]
  show V c main_v0 _ = V c main_v0 _
  congr 1
  funext a
  apply Fin.ext
  match a with
  | ⟨0, _⟩ => show win0_1.index t 0 * 5000 + 1 * k.val = t.val * 5000 + k.val; rw [(in_index t).2.2.1]; omega
  | ⟨1, _⟩ => show win0_1.index t 1 * 1 + 1 * 0 = 0; rw [(in_index t).2.2.2]

theorem lt_100 (t : Fin cfg0.N) : t.val < 100 := lt_of_lt_of_eq t.isLt (show cfg0.N = 100 from N_0)

/-- A tile's contribution to segment `b`'s sum at lane `l` is the sum of the shares of its 5000 rows. -/
theorem tile_sum (c : Dev nD) (t : Fin cfg0.N) (b : Fin 16) (l : Fin 128) :
    ∑ k : Fin 5000, Cert.Spec.hot (wtile V c t (ix2 k 0)) b.val * xtile V c t (ix2 k l)
      = ∑ r ∈ Finset.range 5000, Cert.Spec.term (Xof V c) (Iof V c) b l (t.val * 5000 + r) := by
  rw [Finset.sum_range]
  refine Finset.sum_congr rfl fun k _ => ?_
  have ht := lt_100 t
  have hr : t.val * 5000 + k.val < 500000 := by have := k.isLt; omega
  rw [Cert.Spec.term_lt _ _ _ _ _ hr, xtile_apply V c t k l hr, wtile_apply V c t k hr]

/-- A tile's contribution to segment `b`'s count likewise. -/
theorem tile_count (c : Dev nD) (t : Fin cfg0.N) (b : Fin 16) :
    ∑ k : Fin 5000, Cert.Spec.hot (wtile V c t (ix2 k 0)) b.val
      = ∑ r ∈ Finset.range 5000, Cert.Spec.cterm (Iof V c) b (t.val * 5000 + r) := by
  rw [Finset.sum_range]
  refine Finset.sum_congr rfl fun k _ => ?_
  have ht := lt_100 t
  have hr : t.val * 5000 + k.val < 500000 := by have := k.isLt; omega
  rw [Cert.Spec.cterm_lt _ _ _ hr, wtile_apply V c t k hr]

/-! ## The running sums -/

/-- The block a reset stores is zero everywhere. -/
theorem zero2_apply (b : Fin 16) (l : Fin 128) : k0_pay1 (F := Ideal) (ix3 (0 : Fin 1) b l) = 0 := by
  unfold k0_pay1
  refine (shapeCast_ab_1ab_apply _ shapeCasts_S16x128_S1x16x128 (0 : Fin 1) b l).trans ?_
  show Ideal.ofBits .f32 0x00000000#32 = 0
  exact Ideal.ofBits_zero_f32
theorem zero3_apply (b : Fin 16) : k0_pay2 (F := Ideal) (ix3 (0 : Fin 1) b (0 : Fin 1)) = 0 := by
  unfold k0_pay2
  refine (shapeCast_ab_1ab_apply _ shapeCasts_S16x1_S1x16x1 (0 : Fin 1) b (0 : Fin 1)).trans ?_
  show Ideal.ofBits .f32 0x00000000#32 = 0
  exact Ideal.ofBits_zero_f32

/-- At a reset point both accumulators end at the tile's update of the zero block. -/
theorem outs_reset (c : Dev nD) (t : Fin cfg0.N) (h0 : t.val % 50 = 0) :
    outsAt0 V c t.val t.isLt = (k0_pay4 (wtile V c t) (xtile V c t) (k0_pay1 (F := Ideal)),
      k0_pay5 (wtile V c t) (k0_pay2 (F := Ideal))) :=
  (outsAt0_A V c t h0).trans (congrArg₂ Prod.mk
    (out_A_2 c (grid0.coords t) (ms0_0 t) (hs0_0 t) (ms0_1 t) (hs0_1 t) (ms0_2 t) (hs0_2 t) (ms0_3 t) (hs0_3 t) ((hcond0_0 t).mpr h0) (xtile V c t) (wtile V c t))
    (out_A_3 c (grid0.coords t) (ms0_0 t) (hs0_0 t) (ms0_1 t) (hs0_1 t) (ms0_2 t) (hs0_2 t) (ms0_3 t) (hs0_3 t) ((hcond0_0 t).mpr h0) (xtile V c t) (wtile V c t)))

/-- At any other point both end at the tile's update of what the point before left. -/
theorem outs_step (c : Dev nD) (t : Fin cfg0.N) (h0 : ¬t.val % 50 = 0) :
    outsAt0 V c t.val t.isLt = (k0_pay4 (wtile V c t) (xtile V c t) (outsAt0 V c (t.val - 1) (Nat.lt_of_le_of_lt (Nat.sub_le _ _) t.isLt)).1,
      k0_pay5 (wtile V c t) (outsAt0 V c (t.val - 1) (Nat.lt_of_le_of_lt (Nat.sub_le _ _) t.isLt)).2) :=
  (outsAt0_B V c t h0).trans (congrArg₂ Prod.mk
    (out_B_2 c (grid0.coords t) (ms0_0 t) (hs0_0 t) (ms0_1 t) (hs0_1 t) (ms0_2 t) (hs0_2 t) (ms0_3 t) (hs0_3 t) (fun h => h0 ((hcond0_0 t).mp h)) (xtile V c t) (wtile V c t) (outsAt0 V c (t.val - 1) (Nat.lt_of_le_of_lt (Nat.sub_le _ _) t.isLt)).1 (outsAt0 V c (t.val - 1) (Nat.lt_of_le_of_lt (Nat.sub_le _ _) t.isLt)).2)
    (out_B_3 c (grid0.coords t) (ms0_0 t) (hs0_0 t) (ms0_1 t) (hs0_1 t) (ms0_2 t) (hs0_2 t) (ms0_3 t) (hs0_3 t) (fun h => h0 ((hcond0_0 t).mp h)) (xtile V c t) (wtile V c t) (outsAt0 V c (t.val - 1) (Nat.lt_of_le_of_lt (Nat.sub_le _ _) t.isLt)).1 (outsAt0 V c (t.val - 1) (Nat.lt_of_le_of_lt (Nat.sub_le _ _) t.isLt)).2))

/-- At a reset point the accumulators hold the shares of the tile's own 5000 rows: the first stretch of the core
    half's rows. -/
theorem at_reset (c : Dev nD) (t : Fin cfg0.N) (h0 : t.val % 50 = 0) :
    (∀ (b : Fin 16) (l : Fin 128), (outsAt0 V c t.val t.isLt).1 (ix3 (0 : Fin 1) b l)
        = ∑ r ∈ Finset.range ((t.val % 50 + 1) * 5000), Cert.Spec.term (Xof V c) (Iof V c) b l (t.val / 50 * 250000 + r))
    ∧ (∀ b : Fin 16, (outsAt0 V c t.val t.isLt).2 (ix3 (0 : Fin 1) b (0 : Fin 1))
        = ∑ r ∈ Finset.range ((t.val % 50 + 1) * 5000), Cert.Spec.cterm (Iof V c) b (t.val / 50 * 250000 + r)) := by
  rw [outs_reset V c t h0]
  dsimp only
  have e : (t.val % 50 + 1) * 5000 = 5000 := by omega
  rw [e]
  refine ⟨fun b l => ?_, fun b => ?_⟩
  · rw [pay4_apply, zero2_apply, zero_add, tile_sum]
    exact Finset.sum_congr rfl fun r _ => congrArg _ (by omega)
  · rw [pay5_apply, zero3_apply, zero_add, tile_count]
    exact Finset.sum_congr rfl fun r _ => congrArg _ (by omega)

/-- THE INVARIANT. After point `n` — step `n % 50` of core half `n / 50` — segment `b`'s accumulators hold the shares
    of the first `(n % 50 + 1) · 5000` rows of that half: a reset point starts the stretch, every other point appends its
    5000 rows to it. -/
theorem running (c : Dev nD) : ∀ (n : ℕ) (h : n < cfg0.N),
    (∀ (b : Fin 16) (l : Fin 128), (outsAt0 V c n h).1 (ix3 (0 : Fin 1) b l)
        = ∑ r ∈ Finset.range ((n % 50 + 1) * 5000), Cert.Spec.term (Xof V c) (Iof V c) b l (n / 50 * 250000 + r))
    ∧ (∀ b : Fin 16, (outsAt0 V c n h).2 (ix3 (0 : Fin 1) b (0 : Fin 1))
        = ∑ r ∈ Finset.range ((n % 50 + 1) * 5000), Cert.Spec.cterm (Iof V c) b (n / 50 * 250000 + r)) := by
  intro n
  induction n with
  | zero => intro h; exact at_reset V c ⟨0, h⟩ rfl
  | succ n ih =>
    intro h
    by_cases h0 : (n + 1) % 50 = 0
    · exact at_reset V c ⟨n + 1, h⟩ h0
    · have hB : ¬(⟨n + 1, h⟩ : Fin cfg0.N).val % 50 = 0 := h0
      have ihn := ih (Nat.lt_of_succ_lt h)
      have e1 : (n + 1) / 50 = n / 50 := by omega
      have e2 : ((n + 1) % 50 + 1) * 5000 = (n % 50 + 1) * 5000 + 5000 := by omega
      rw [show outsAt0 V c (n + 1) h = _ from outs_step V c ⟨n + 1, h⟩ hB]
      dsimp only
      rw [e1, e2]
      refine ⟨fun b l => ?_, fun b => ?_⟩
      · rw [pay4_apply, tile_sum, Finset.sum_range_add]
        dsimp only
        refine congrArg₂ (· + ·) (ihn.1 b l) (Finset.sum_congr rfl fun r _ => congrArg _ (by omega))
      · rw [pay5_apply, tile_count, Finset.sum_range_add]
        dsimp only
        refine congrArg₂ (· + ·) (ihn.2 b) (Finset.sum_congr rfl fun r _ => congrArg _ (by omega))

/-! ## The write-backs and the two arrays -/

/-- What the sums' array ends holding: at core half `i 0`, segment `i 1`, lane `i 2`, the shares of that half's rows. -/
def Gsum (c : Dev nD) : S2x16x128.Idx → Elt Ideal .f32 := fun i =>
  ∑ r ∈ Finset.range 250000, Cert.Spec.term (Xof V c) (Iof V c) (i 1) (i 2) ((i 0).val * 250000 + r)
/-- What the counts' array ends holding. -/
def Gcnt (c : Dev nD) : S2x16x1.Idx → Elt Ideal .f32 := fun i =>
  ∑ r ∈ Finset.range 250000, Cert.Spec.cterm (Iof V c) (i 1) ((i 0).val * 250000 + r)

theorem Gsum_apply (c : Dev nD) (q : Fin 2) (b : Fin 16) (l : Fin 128) :
    Gsum V c (ix3 q b l) = ∑ r ∈ Finset.range 250000, Cert.Spec.term (Xof V c) (Iof V c) b l (q.val * 250000 + r) := by
  unfold Gsum; rfl
theorem Gcnt_apply (c : Dev nD) (q : Fin 2) (b : Fin 16) :
    Gcnt V c (ix3 q b (0 : Fin 1)) = ∑ r ∈ Finset.range 250000, Cert.Spec.cterm (Iof V c) b (q.val * 250000 + r) := by
  unfold Gcnt; rfl

attribute [irreducible] Gsum Gcnt

/-- Both outputs' block index at point `t` is the core half `t / 50`, and the block is whole in the other axes. -/
theorem out_index : ∀ t : Fin cfg0.N, win0_2.index t (0 : Fin 3) = t.val / 50 ∧ win0_2.index t (1 : Fin 3) = 0
    ∧ win0_2.index t (2 : Fin 3) = 0 ∧ win0_3.index t (0 : Fin 3) = t.val / 50 ∧ win0_3.index t (1 : Fin 3) = 0
    ∧ win0_3.index t (2 : Fin 3) = 0 :=
  (by decide +kernel : ∀ t : Fin grid0.N, _)

/-- What a writing-back point (the last step of a core half) writes of the sums is that half's slab of `Gsum`. -/
theorem flushed_sum (c : Dev nD) (t : Fin cfg0.N) (hf : (cfg0.win 2).flush t = true) :
    (dat0 V c).flushed 2 t = ((cfg0.win 2).blk t).view.read (Elt Ideal) (Gsum V c) := by
  have h49 : t.val % 50 = 49 := (flush0_2 t).mp hf
  have ht := lt_100 t
  show (cfg0.win 2).cut (grid0.coords t) ((dat0 V c).after 2 t) = _
  rw [after0_2]
  funext j
  obtain ⟨u, b, l, rfl⟩ : ∃ (u : Fin 1) (b : Fin 16) (l : Fin 128), j = ix3 u b l := ⟨j 0, j 1, j 2, eq_ix3 j⟩
  obtain rfl : u = 0 := Subsingleton.elim _ _
  rw [View.read_apply]
  show (outsAt0 V c t.val t.isLt).1 ((cfg0.win 2).xinj (grid0.coords t) (ix3 (0 : Fin 1) b l))
      = Gsum V c (((cfg0.win 2).blk t).view.emb (ix3 (0 : Fin 1) b l))
  have hx : (cfg0.win 2).xinj (grid0.coords t) (ix3 (0 : Fin 1) b l) = (ix3 (0 : Fin 1) b l : S1x16x128.Idx) :=
    funext fun a => Fin.ext (match a with | ⟨0, _⟩ => rfl | ⟨1, _⟩ => rfl | ⟨2, _⟩ => rfl)
  rw [hx, (running V c t.val t.isLt).1 b l]
  have e : (t.val % 50 + 1) * 5000 = 250000 := by omega
  rw [e]
  have hi : ((cfg0.win 2).blk t).view.emb (ix3 (0 : Fin 1) b l)
      = (ix3 (⟨t.val / 50, by omega⟩ : Fin 2) b l : S2x16x128.Idx) := by
    funext a; apply Fin.ext
    obtain ⟨e0, e1, e2, -⟩ := out_index t
    match a with
    | ⟨0, _⟩ => show win0_2.index t 0 * 1 + 1 * 0 = t.val / 50; rw [e0]; omega
    | ⟨1, _⟩ => show win0_2.index t 1 * 16 + 1 * b.val = b.val; rw [e1]; omega
    | ⟨2, _⟩ => show win0_2.index t 2 * 128 + 1 * l.val = l.val; rw [e2]; omega
  rw [hi, Gsum_apply]

/-- Likewise for the counts. -/
theorem flushed_cnt (c : Dev nD) (t : Fin cfg0.N) (hf : (cfg0.win 3).flush t = true) :
    (dat0 V c).flushed 3 t = ((cfg0.win 3).blk t).view.read (Elt Ideal) (Gcnt V c) := by
  have h49 : t.val % 50 = 49 := (flush0_3 t).mp hf
  have ht := lt_100 t
  show (cfg0.win 3).cut (grid0.coords t) ((dat0 V c).after 3 t) = _
  rw [after0_3]
  funext j
  obtain ⟨u, b, z, rfl⟩ : ∃ (u : Fin 1) (b : Fin 16) (z : Fin 1), j = ix3 u b z := ⟨j 0, j 1, j 2, eq_ix3 j⟩
  obtain rfl : u = 0 := Subsingleton.elim _ _
  obtain rfl : z = 0 := Subsingleton.elim _ _
  rw [View.read_apply]
  show (outsAt0 V c t.val t.isLt).2 ((cfg0.win 3).xinj (grid0.coords t) (ix3 (0 : Fin 1) b (0 : Fin 1)))
      = Gcnt V c (((cfg0.win 3).blk t).view.emb (ix3 (0 : Fin 1) b (0 : Fin 1)))
  have hx : (cfg0.win 3).xinj (grid0.coords t) (ix3 (0 : Fin 1) b (0 : Fin 1)) = (ix3 (0 : Fin 1) b (0 : Fin 1) : S1x16x1.Idx) :=
    funext fun a => Fin.ext (match a with | ⟨0, _⟩ => rfl | ⟨1, _⟩ => rfl | ⟨2, _⟩ => rfl)
  rw [hx, (running V c t.val t.isLt).2 b]
  have e : (t.val % 50 + 1) * 5000 = 250000 := by omega
  rw [e]
  have hi : ((cfg0.win 3).blk t).view.emb (ix3 (0 : Fin 1) b (0 : Fin 1))
      = (ix3 (⟨t.val / 50, by omega⟩ : Fin 2) b (0 : Fin 1) : S2x16x1.Idx) := by
    funext a; apply Fin.ext
    obtain ⟨-, -, -, e0, e1, e2⟩ := out_index t
    match a with
    | ⟨0, _⟩ => show win0_3.index t 0 * 1 + 1 * 0 = t.val / 50; rw [e0]; omega
    | ⟨1, _⟩ => show win0_3.index t 1 * 16 + 1 * b.val = b.val; rw [e1]; omega
    | ⟨2, _⟩ => show win0_3.index t 2 * 1 + 1 * 0 = 0; rw [e2]
  rw [hi, Gcnt_apply]

/-- Every entry of the sums' array lies in the block that the last step of its core half writes back; so the array
    ends holding `Gsum`. -/
theorem final_sum (c : Dev nD) : (dat0 V c).arrAt 2 cfg0.N = Gsum V c :=
  (dat0 V c).arrAt_eq_of_cover 2 (Gsum V c) (flushed_sum V c) fun i => by
    have h0 : (i 0).val < 2 := (i 0).isLt
    have h1 : (i 1).val < 16 := (i 1).isLt
    have h2 : (i 2).val < 128 := (i 2).isLt
    have hN : cfg0.N = 100 := N_0
    obtain ⟨t, htv⟩ : ∃ t : Fin cfg0.N, t.val = (i 0).val * 50 + 49 := ⟨⟨(i 0).val * 50 + 49, by rw [hN]; omega⟩, rfl⟩
    refine ⟨t, (flush0_2 t).mpr (by omega), ?_⟩
    show i ∈ ((View.whole main_v1_0).slice (win0_2.rect t)).set
    rw [View.set_slice_whole, Rect.mem_set_unit]
    obtain ⟨e0, e1, e2, -⟩ := out_index t
    intro a
    match a with
    | ⟨0, _⟩ => show win0_2.index t 0 * 1 ≤ (i 0).val ∧ (i 0).val < win0_2.index t 0 * 1 + 1; rw [e0]; omega
    | ⟨1, _⟩ => show win0_2.index t 1 * 16 ≤ (i 1).val ∧ (i 1).val < win0_2.index t 1 * 16 + 16; rw [e1]; omega
    | ⟨2, _⟩ => show win0_2.index t 2 * 128 ≤ (i 2).val ∧ (i 2).val < win0_2.index t 2 * 128 + 128; rw [e2]; omega

/-- Likewise the counts' array ends holding `Gcnt`. -/
theorem final_cnt (c : Dev nD) : (dat0 V c).arrAt 3 cfg0.N = Gcnt V c :=
  (dat0 V c).arrAt_eq_of_cover 3 (Gcnt V c) (flushed_cnt V c) fun i => by
    have h0 : (i 0).val < 2 := (i 0).isLt
    have h1 : (i 1).val < 16 := (i 1).isLt
    have h2 : (i 2).val < 1 := (i 2).isLt
    have hN : cfg0.N = 100 := N_0
    obtain ⟨t, htv⟩ : ∃ t : Fin cfg0.N, t.val = (i 0).val * 50 + 49 := ⟨⟨(i 0).val * 50 + 49, by rw [hN]; omega⟩, rfl⟩
    refine ⟨t, (flush0_3 t).mpr (by omega), ?_⟩
    show i ∈ ((View.whole main_v1_1).slice (win0_3.rect t)).set
    rw [View.set_slice_whole, Rect.mem_set_unit]
    obtain ⟨-, -, -, e0, e1, e2⟩ := out_index t
    intro a
    match a with
    | ⟨0, _⟩ => show win0_3.index t 0 * 1 ≤ (i 0).val ∧ (i 0).val < win0_3.index t 0 * 1 + 1; rw [e0]; omega
    | ⟨1, _⟩ => show win0_3.index t 1 * 16 ≤ (i 1).val ∧ (i 1).val < win0_3.index t 1 * 16 + 16; rw [e1]; omega
    | ⟨2, _⟩ => show win0_3.index t 2 * 1 ≤ (i 2).val ∧ (i 2).val < win0_3.index t 2 * 1 + 1; rw [e2]; omega

/-- Core half `ci`'s slab of the partial sums after the region: segment `b`'s sum over that half's 250000 rows. -/
theorem arr0_2 (c : Dev nD) (ci : Fin 2) (b : Fin 16) (l : Fin 128) :
    (dat0 (F := Ideal) V c).arrAt 2 cfg0.N (ix3 ci b l)
      = ∑ r ∈ Finset.range 250000, Cert.Spec.term (Xof V c) (Iof V c) b l (ci.val * 250000 + r) := by
  rw [final_sum V c, Gsum_apply]

/-- Core half `ci`'s slab of the partial counts after the region. -/
theorem arr0_3 (c : Dev nD) (ci : Fin 2) (b : Fin 16) :
    (dat0 (F := Ideal) V c).arrAt 3 cfg0.N (ix3 ci b 0)
      = ∑ r ∈ Finset.range 250000, Cert.Spec.cterm (Iof V c) b (ci.val * 250000 + r) := by
  rw [final_cnt V c, Gcnt_apply]

end Cert.KernelIdeal.Seg

end
-- ==== Proof.Mul.lean ====
/-
  The second pallas_call (the gate gathered by a one-hot product and multiplied in), read as values at the extended reals.
-/
import proofs.«427693_j21053929685330_3_alg».proof.Defs
import proofs.«427693_j21053929685330_3_alg».proof.Proof.Gen.KernelIdeal.Frame
import proofs.«427693_j21053929685330_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Mul

open Cert.KernelIdeal Cert.KernelIdeal.Gen

variable (V : (c : Dev nD) → (b : Ref sig .tc) → Buf (Elt Ideal) ((c : Thread nD τ).loc b))

/-- The feature array the region finds, by row and lane. -/
abbrev Xof (c : Dev nD) : Fin 500000 → Fin 128 → EReal := fun r l => V c main_arg0 (ix2 r l)
/-- The segment words the region finds, by row. -/
abbrev Iof (c : Dev nD) : Fin 500000 → BitVec 32 := fun r => V c main_v0 (ix2 r 0)
/-- The gate the region finds, by segment and lane. -/
abbrev Gof (c : Dev nD) : Fin 16 → Fin 128 → EReal := fun k l => V c main_v22 (ix2 k l)
/-- The result array after the region, by row and lane. -/
abbrev Oof (c : Dev nD) : Fin 500000 → Fin 128 → EReal := fun r l => (dat1 (F := Ideal) V c).arrAt 3 cfg1.N (ix2 r l)

/-! ## The body's arithmetic at one entry -/

/-- The comparison bit of two words, widened to a word and read as a signed integer, is the one-hot entry:
    one when the word is the segment number, zero otherwise. -/
theorem hot_word (a : BitVec 32) (k : ℕ) :
    FloatOps.sitofp (F := Ideal) .f32 ((IntOp.cmpi .eq a (BitVec.ofNat 32 k)).setWidth 32) = Cert.Spec.hot a k := by
  unfold Cert.Spec.hot IntOp.cmpi
  by_cases h : a = BitVec.ofNat 32 k
  · rw [if_pos h]
    have e : (a == BitVec.ofNat 32 k) = true := by rw [h]; exact beq_self_eq_true _
    simp only [e]
    show (((((BitVec.ofBool true).setWidth 32).toInt : ℤ) : ℝ) : EReal) = 1
    have : ((BitVec.ofBool true).setWidth 32).toInt = 1 := by decide
    rw [this]; norm_num
  · rw [if_neg h]
    have e : (a == BitVec.ofNat 32 k) = false := by
      cases hb : (a == BitVec.ofNat 32 k)
      · rfl
      · exact absurd (eq_of_beq hb) h
    simp only [e]
    show (((((BitVec.ofBool false).setWidth 32).toInt : ℤ) : ℝ) : EReal) = 0
    have : ((BitVec.ofBool false).setWidth 32).toInt = 0 := by decide
    rw [this]; norm_num

/-- In the product of the one-hot rows [5000,16] with the gate [16,128], the left operand is read at the output's row -/
theorem lhs_onehot_0 (i : S5000x128.Idx) (q : dot_S5000x16_S16x128_S5000x128_1_0_0_1_n_n.contr.Idx) :
    (dot_S5000x16_S16x128_S5000x128_1_0_0_1_n_n.lhsIdx i q 0).val = (i 0).val := by
  unfold DotDims.lhsIdx
  rw [dif_neg (show ¬(0 : Fin S5000x16.rank) ∈ dot_S5000x16_S16x128_S5000x128_1_0_0_1_n_n.lhsBatch by decide), dif_pos (show (0 : Fin S5000x16.rank) ∈ dot_S5000x16_S16x128_S5000x128_1_0_0_1_n_n.lhsNonContracting by decide)]
  rfl
/-- and at the summed segment number; -/
theorem lhs_onehot_1 (i : S5000x128.Idx) (q : dot_S5000x16_S16x128_S5000x128_1_0_0_1_n_n.contr.Idx) :
    (dot_S5000x16_S16x128_S5000x128_1_0_0_1_n_n.lhsIdx i q 1).val = (q ⟨0, by decide⟩).val :=
  dot_S5000x16_S16x128_S5000x128_1_0_0_1_n_n.lhsIdx_val_of_single rfl i q
/-- the right operand at the summed segment number -/
theorem rhs_gate_0 (i : S5000x128.Idx) (q : dot_S5000x16_S16x128_S5000x128_1_0_0_1_n_n.contr.Idx) :
    (dot_S5000x16_S16x128_S5000x128_1_0_0_1_n_n.rhsIdx i q 0).val = (q ⟨0, by decide⟩).val :=
  dot_S5000x16_S16x128_S5000x128_1_0_0_1_n_n.rhsIdx_val_of_single rfl i q
/-- and at the output's lane. -/
theorem rhs_gate_1 (i : S5000x128.Idx) (q : dot_S5000x16_S16x128_S5000x128_1_0_0_1_n_n.contr.Idx) :
    (dot_S5000x16_S16x128_S5000x128_1_0_0_1_n_n.rhsIdx i q 1).val = (i 1).val := by
  unfold DotDims.rhsIdx
  rw [dif_neg (show ¬(1 : Fin S16x128.rank) ∈ dot_S5000x16_S16x128_S5000x128_1_0_0_1_n_n.rhsBatch by decide), dif_pos (show (1 : Fin S16x128.rank) ∈ dot_S5000x16_S16x128_S5000x128_1_0_0_1_n_n.rhsNonContracting by decide)]
  rfl

/-- The one-hot rows the body builds from a block of segment words: entry (p, k) is the one-hot entry of row p's word
    against segment k. The words are broadcast along the sixteen columns and compared with the column number. -/
theorem onehot_apply (v0 : Vec Ideal S5000x1 .i32) (p : Fin 5000) (k : Fin 16) :
    (sitofp (F := Ideal) .f32 (extui 32 (cmpi .eq (broadcastTo S5000x16 (shapeCast S5000x1 v0 shapeCasts_S5000x1_S5000x1) broadcasts_S5000x1_S5000x16)
        (iota .tc S5000x16 32 [1] iota_S5000x16_d1_w32)) natLt_1_32) : FVec Ideal S5000x16 .f32) (ix2 p k)
      = Cert.Spec.hot (v0 (ix2 p 0)) k.val := by
  rw [shapeCast_self]
  show FloatOps.sitofp (F := Ideal) .f32 ((IntOp.cmpi .eq (broadcastTo S5000x16 v0 broadcasts_S5000x1_S5000x16 (ix2 p k))
      (iota .tc S5000x16 32 [1] iota_S5000x16_d1_w32 (ix2 p k))).setWidth 32) = _
  rw [iota_single_apply, broadcastTo_apply v0 broadcasts_S5000x1_S5000x16 (ix2 p k) (ix2 p 0) (fun a => by
    match a with
    | ⟨0, _⟩ => show p.val = if (5000 : Nat) = 1 then 0 else p.val; rw [if_neg (by decide)]
    | ⟨1, _⟩ => show 0 = if (1 : Nat) = 1 then 0 else k.val; rw [if_pos rfl])]
  exact hot_word _ _

/-- THE BODY'S RESULT AT ONE ENTRY: the feature entry times the sum over the sixteen segments of the row's one-hot
    entry times the gate's entry at that segment and lane. Narrowing to the short format changes nothing here,
    and the product's accumulator starts at zero. -/
theorem pay_apply (v0 : Vec Ideal S5000x1 .i32) (v8 : Vec Ideal S16x128 .f32) (v12 : Vec Ideal S5000x128 .f32) (p : Fin 5000) (q : Fin 128) :
    k1_pay1 (F := Ideal) v0 v8 v12 (ix2 p q) = v12 (ix2 p q) * ∑ k : Fin 16, Cert.Spec.hot (v0 (ix2 p 0)) k.val * v8 (ix2 k q) := by
  unfold k1_pay1
  rw [mulf_apply]
  congr 1
  show FloatOps.matmul _ _ _ _ _ _ = _
  rw [Ideal.matmul_constant_zero_apply, ← Equiv.sum_comp (ValueIdx.contrEquiv1 dot_S5000x16_S16x128_S5000x128_1_0_0_1_n_n 16 rfl rfl).symm]
  refine Finset.sum_congr rfl fun k _ => ?_
  have hk := ValueIdx.contrEquiv1_symm_val dot_S5000x16_S16x128_S5000x128_1_0_0_1_n_n 16 rfl rfl k
  have el : dot_S5000x16_S16x128_S5000x128_1_0_0_1_n_n.lhsIdx (ix2 p q) ((ValueIdx.contrEquiv1 dot_S5000x16_S16x128_S5000x128_1_0_0_1_n_n 16 rfl rfl).symm k) = ix2 p k := funext fun a => Fin.ext (by
    match a with
    | ⟨0, _⟩ => exact lhs_onehot_0 _ _
    | ⟨1, _⟩ => exact (lhs_onehot_1 _ _).trans hk)
  have er : dot_S5000x16_S16x128_S5000x128_1_0_0_1_n_n.rhsIdx (ix2 p q) ((ValueIdx.contrEquiv1 dot_S5000x16_S16x128_S5000x128_1_0_0_1_n_n 16 rfl rfl).symm k) = ix2 k q := funext fun a => Fin.ext (by
    match a with
    | ⟨0, _⟩ => exact (rhs_gate_0 _ _).trans hk
    | ⟨1, _⟩ => exact rhs_gate_1 _ _)
  rw [el, er, truncf_apply, truncf_apply, onehot_apply, shapeCast_self]

/-! ## From the blocks to the array -/

theorem off_zero : (![0, 0] : Fin 2 → Nat) = fun _ => 0 := funext fun a => by fin_cases a <;> rfl

/-- The whole result as one function of the three arrays read: at row `i 0` and lane `i 1`, the feature entry
    times the one-hot row of that row's segment word against the gate's column at that lane. -/
abbrev gated (X : S500000x128.Idx → EReal) (I : S500000x1.Idx → BitVec 32) (G : S16x128.Idx → EReal) : S500000x128.Idx → EReal :=
  fun i => X i * ∑ k : Fin 16, Cert.Spec.hot (I (ix2 (⟨(i 0).val, idx2_lt0 i⟩ : Fin 500000) (0 : Fin 1))) k.val
    * G (ix2 k (⟨(i 1).val, idx2_lt1 i⟩ : Fin 128))

/-- ONE POINT'S BLOCK of the result: when the feature block and the word block are rows `5000 n …` of their arrays
    and the gate block is the whole gate, the body's result at entry `x` of the block is `gated` at row
    `5000 n + x 0`, lane `x 1`. -/
theorem point_entry (x0 : Vec Ideal S5000x128 .f32) (x1 : Vec Ideal S5000x1 .i32) (x2 : Vec Ideal S16x128 .f32)
    (X : S500000x128.Idx → EReal) (I : S500000x1.Idx → BitVec 32) (G : S16x128.Idx → EReal) (n : ℕ)
    (h0 : ∀ (x : S5000x128.Idx) (k : S500000x128.Idx), (k 0).val = n * 5000 + (x 0).val → (k 1).val = (x 1).val → x0 x = X k)
    (h1 : ∀ (x : S5000x1.Idx) (k : S500000x1.Idx), (k 0).val = n * 5000 + (x 0).val → (k 1).val = (x 1).val → x1 x = I k)
    (h2 : ∀ y : S16x128.Idx, x2 y = G y)
    (x : S5000x128.Idx) (i : S500000x128.Idx) (hi0 : (i 0).val = n * 5000 + (x 0).val) (hi1 : (i 1).val = (x 1).val) :
    k1_pay1 (F := Ideal) x1 x2 x0 x = gated X I G i := by
  obtain ⟨p, q, rfl⟩ : ∃ (p : Fin 5000) (q : Fin 128), x = ix2 p q := ⟨x 0, x 1, eq_ix2 x⟩
  have hq : (⟨(i 1).val, idx2_lt1 i⟩ : Fin 128) = q := Fin.ext hi1
  rw [pay_apply, h0 (ix2 p q) i hi0 hi1,
    h1 (ix2 p 0) (ix2 (⟨(i 0).val, idx2_lt0 i⟩ : Fin 500000) (0 : Fin 1)) hi0 rfl]
  show _ = X i * _
  rw [hq]
  congr 1
  exact Finset.sum_congr rfl fun k _ => by rw [h2]

/-- Where the four windows' blocks sit at point `t`: the features', the words' and the result's at row block `t`,
    the gate's always the whole gate (the printed index maps, decided over the hundred points). -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The feature block at point `t` is rows `5000 t … 5000 t + 4999` of the feature array. -/
theorem xblk_apply (c : Dev nD) (t : Fin cfg1.N) (x : S5000x128.Idx) (k : S500000x128.Idx)
    (hk0 : (k 0).val = t.val * 5000 + (x 0).val) (hk1 : (k 1).val = (x 1).val) :
    (iblk1 (F := Ideal) V c 0 t : Vec Ideal S5000x128 .f32) x = (V c main_arg0 : S500000x128.Idx → EReal) k := by
  obtain ⟨e0, e1, -⟩ := index_facts t
  unfold iblk1
  rw [View.read_apply]
  show V c main_arg0 _ = V c main_arg0 _
  congr 1
  funext a
  apply Fin.ext
  match a with
  | ⟨0, _⟩ => show win1_0.index t (0 : Fin 2) * 5000 + 1 * (x 0).val = (k 0).val; rw [e0, hk0]; omega
  | ⟨1, _⟩ => show win1_0.index t (1 : Fin 2) * 128 + 1 * (x 1).val = (k 1).val; rw [e1, hk1]; omega

/-- The word block at point `t` is rows `5000 t … 5000 t + 4999` of the word column. -/
theorem iblk_apply (c : Dev nD) (t : Fin cfg1.N) (x : S5000x1.Idx) (k : S500000x1.Idx)
    (hk0 : (k 0).val = t.val * 5000 + (x 0).val) (hk1 : (k 1).val = (x 1).val) :
    (iblk1 (F := Ideal) V c 1 t : Vec Ideal S5000x1 .i32) x = (V c main_v0 : S500000x1.Idx → BitVec 32) k := by
  obtain ⟨-, -, e0, e1, -⟩ := index_facts t
  unfold iblk1
  rw [View.read_apply]
  show V c main_v0 _ = V c main_v0 _
  congr 1
  funext a
  apply Fin.ext
  match a with
  | ⟨0, _⟩ => show win1_1.index t (0 : Fin 2) * 5000 + 1 * (x 0).val = (k 0).val; rw [e0, hk0]; omega
  | ⟨1, _⟩ => show win1_1.index t (1 : Fin 2) * 1 + 1 * (x 1).val = (k 1).val; rw [e1, hk1]; omega

/-- The gate block at every point is the whole gate. -/
theorem gblk_apply (c : Dev nD) (t : Fin cfg1.N) (y : S16x128.Idx) :
    (iblk1 (F := Ideal) V c 2 t : Vec Ideal S16x128 .f32) y = (V c main_v22 : S16x128.Idx → EReal) y := by
  obtain ⟨-, -, -, -, e0, e1, -⟩ := index_facts t
  unfold iblk1
  rw [View.read_apply]
  show V c main_v22 _ = V c main_v22 _
  congr 1
  funext a
  apply Fin.ext
  match a with
  | ⟨0, _⟩ => show win1_2.index t (0 : Fin 2) * 16 + 1 * (y 0).val = (y 0).val; rw [e0]; omega
  | ⟨1, _⟩ => show win1_2.index t (1 : Fin 2) * 128 + 1 * (y 1).val = (y 1).val; rw [e1]; omega

/-- The result array as a function of the arrays the region finds. -/
abbrev gatedArr (c : Dev nD) : S500000x128.Idx → EReal :=
  gated (V c main_arg0 : S500000x128.Idx → EReal) (V c main_v0 : S500000x1.Idx → BitVec 32) (V c main_v22 : S16x128.Idx → EReal)

/-- WHAT POINT `t` WRITES BACK is block `t` of that function. -/
theorem flushed_eq (c : Dev nD) (t : Fin cfg1.N) :
    (dat1 (F := Ideal) V c).flushed 3 t = ((cfg1.win 3).blk t).view.read (Elt Ideal) (gatedArr V c) := by
  show (cfg1.win 3).cut (grid1.coords t) ((dat1 (F := Ideal) V c).after 3 t) = _
  rw [after1_3]
  unfold out1_3
  rw [View.canon_unit_zero off_zero]
  simp only [View.ld_unit_zero (S := S5000x1) off_zero, View.ld_unit_zero (S := S16x128) off_zero, View.ld_unit_zero (S := S5000x128) off_zero]
  obtain ⟨-, -, -, -, -, -, e0, e1⟩ := index_facts t
  funext j
  rw [View.read_apply]
  show k1_pay1 (F := Ideal) (iblk1 V c 1 t) (iblk1 V c 2 t) (iblk1 V c 0 t) j = gatedArr V c (((cfg1.win 3).blk t).view.emb j)
  refine point_entry (iblk1 V c 0 t) (iblk1 V c 1 t) (iblk1 V c 2 t) _ _ _ t.val
    (fun x k hk0 hk1 => xblk_apply V c t x k hk0 hk1) (fun x k hk0 hk1 => iblk_apply V c t x k hk0 hk1)
    (fun y => gblk_apply V c t y) j _ ?_ ?_
  · show win1_3.index t (0 : Fin 2) * 5000 + 1 * (j 0).val = t.val * 5000 + (j 0).val; rw [e0]; omega
  · show win1_3.index t (1 : Fin 2) * 128 + 1 * (j 1).val = (j 1).val; rw [e1]; omega

/-- An index of the result array is in point `t`'s block exactly when each coordinate lies in the block's range on its axis. -/
theorem mem_blk (t : Fin cfg1.N) (i : S500000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v23).slice (win1_3.rect t)).set ↔ _
  rw [View.set_slice_whole, Rect.mem_set_unit]
  exact Iff.rfl

/-- Every entry of the result array is written back: row `r` lies in the block of point `r / 5000`, and every point
    writes its block back. -/
theorem covered (i : S500000x128.Idx) :
    ∃ t : Fin cfg1.N, (cfg1.win 3).flush t = true ∧ i ∈ ((cfg1.win 3).blk t).view.set := by
  have hi0 : (i 0).val < 500000 := idx2_lt0 i
  have hi1 : (i 1).val < 128 := idx2_lt1 i
  have hN : cfg1.N = 100 := N_1
  obtain ⟨t, ht⟩ : ∃ t : Fin cfg1.N, t.val = (i 0).val / 5000 := ⟨⟨(i 0).val / 5000, by rw [hN]; omega⟩, rfl⟩
  obtain ⟨-, -, -, -, -, -, e0, e1⟩ := index_facts t
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    rw [e0, ht]; omega
  | ⟨1, _⟩ =>
    show win1_3.index t (1 : Fin 2) * 128 ≤ (i 1).val ∧ (i 1).val < win1_3.index t (1 : Fin 2) * 128 + 128
    rw [e1]; omega

/-- THE RESULT ARRAY after the region is `gated` of the arrays the region finds. -/
theorem final (c : Dev nD) : (dat1 (F := Ideal) V c).arrAt 3 cfg1.N = gatedArr V c :=
  (dat1 (F := Ideal) V c).arrAt_eq_of_cover 3 (gatedArr V c) (fun t _ => flushed_eq V c t) covered

/-- The result array after the region: each entry of the features times the one-hot row's product with the gate. -/
theorem arr1_3 (c : Dev nD) (r : Fin 500000) (l : Fin 128) :
    Oof V c r l = Xof V c r l * ∑ k : Fin 16, Cert.Spec.hot (Iof V c r) k.val * Gof V c k l := by
  show (dat1 (F := Ideal) V c).arrAt 3 cfg1.N (ix2 r l) = _
  rw [final V c]

end Cert.KernelIdeal.Mul

end
-- ==== Proof.RefSide.lean ====
/-
  The reference read at an index: its two scatter-adds as segment sums, its gather as a pick of the gate's row.
-/
import proofs.«427693_j21053929685330_3_alg».proof.Defs
import proofs.«427693_j21053929685330_3_alg».proof.Proof.Gen.ReferenceIdeal.Run
import proofs.«427693_j21053929685330_3_alg».proof.Proof.Gen.ReferenceIdeal.Read
import proofs.«427693_j21053929685330_3_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open scoped BigOperators

namespace Cert.ReferenceIdeal.RefSide

open Cert.ReferenceIdeal Cert.ReferenceIdeal.Read

/-- A rank-1 index set is its one coordinate's range … -/
def idx1Equiv {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idx1Equiv (n := n)).symm f]
  rfl

/-- The word `0x3F800000` is the number one: sign clear, biased exponent 127, fraction zero. -/
theorem ofBits_one_f32 : Ideal.ofBits .f32 0x3F800000#32 = 1 := by
  have e1 : (BitVec.extractLsb' 23 8 (0x3F800000#32)).toNat = 127 := by decide
  have e2 : (BitVec.extractLsb' 0 23 (0x3F800000#32)).toNat = 0 := by decide
  have e3 : (BitVec.extractLsb' 31 1 (0x3F800000#32) == 1#1) = false := by decide
  simp only [Ideal.ofBits, Ideal.ieee]
  simp [e1, e2, e3]
  rw [← EReal.coe_mul]
  norm_num

/-- A word read signed is a segment number below sixteen exactly when it is that number's 32-bit word. -/
theorem toInt_eq_iff (w : BitVec 32) (b : ℕ) (hb : b < 16) : w.toInt = (b : ℤ) ↔ w = BitVec.ofNat 32 b := by
  have hB : (BitVec.ofNat 32 b).toInt = (b : ℤ) := by
    interval_cases b <;> decide
  constructor
  · intro h
    exact BitVec.eq_of_toInt_eq (h.trans hB.symm)
  · rintro rfl
    exact hB

/-- The accumulating scatter at the exact instance, read at an index: the element plus the sum of the updates that land on it. -/
theorem scatterAdd_apply {s si u : Shape} {w : Nat} {φ : FTy} (d : ScatterDims s si u) (x : FVec Ideal s φ) (idx : IVec si w)
    (upd : FVec Ideal u φ) (i : s.Idx) :
    Host.scatterAdd d x idx upd i = Ideal.hostScatterAdd d x idx upd i := rfl

/-! ## The count scatter: which segment an update row lands on -/

/-- The index word an update row of the count scatter reads: the row's own word. -/
theorem cnt_siIdx (j : S500000.Idx) (c : Fin scatter_S16_S500000x1_S500000_n_0_0_1.scatterDimsToOperandDims.length) :
    scatter_S16_S500000x1_S500000_n_0_0_1.siIdx j c = ix2 (j 0) 0 := by
  funext b
  refine Fin.ext ?_
  match b with
  | ⟨0, _⟩ => rfl
  | ⟨1, _⟩ =>
    show c.val = 0
    have := c.isLt
    simp [scatter_S16_S500000x1_S500000_n_0_0_1] at this
    omega

theorem cnt_start (j : S500000.Idx) (idx : IVec S500000x1 32) :
    scatter_S16_S500000x1_S500000_n_0_0_1.start j idx 0 = (idx (ix2 (j 0) 0)).toInt := by
  unfold ScatterDims.start
  rw [dif_pos (show (0 : Fin 1) ∈ scatter_S16_S500000x1_S500000_n_0_0_1.scatterDimsToOperandDims from List.mem_singleton.mpr rfl)]
  rw [cnt_siIdx]
  rfl

theorem cnt_window (j : S500000.Idx) :
    scatter_S16_S500000x1_S500000_n_0_0_1.window j 0 = 0 := by
  unfold ScatterDims.window
  rw [dif_neg (by decide)]

theorem cnt_lands (j : S500000.Idx) (idx : IVec S500000x1 32) (b : Fin 16) :
    scatter_S16_S500000x1_S500000_n_0_0_1.resultIdx? j idx = some (ix1 b) ↔ (idx (ix2 (j 0) 0)).toInt = (b.val : ℤ) := by
  unfold ScatterDims.resultIdx?
  have hb := b.isLt
  split
  · rename_i h
    have h0 := h 0
    rw [cnt_start, cnt_window] at h0
    constructor
    · intro e
      have e0 := congrArg (fun f => (f 0).val) (Option.some.inj e)
      simp only [cnt_start, cnt_window] at e0
      change ((idx (ix2 (j 0) 0)).toInt + ((0 : ℕ) : ℤ)).toNat = b.val at e0
      omega
    · intro e
      congr 1
      funext a
      obtain rfl : a = 0 := Subsingleton.elim _ _
      refine Fin.ext ?_
      show (scatter_S16_S500000x1_S500000_n_0_0_1.start j idx 0 + scatter_S16_S500000x1_S500000_n_0_0_1.window j 0).toNat = b.val
      rw [cnt_start, cnt_window]
      omega
  · rename_i h
    constructor
    · intro e; exact absurd e (by simp)
    · intro e
      exfalso
      apply h
      intro a
      obtain rfl : a = 0 := Subsingleton.elim _ _
      rw [cnt_start, cnt_window]
      show 0 ≤ _ ∧ _ < (16 : ℤ)
      omega

/-! ## The sum scatter: which element an update element lands on -/

/-- The index word an update element of the sum scatter reads: its row's word. -/
theorem sum_siIdx (j : S500000x128.Idx) (c : Fin scatter_S16x128_S500000x1_S500000x128_1_0_0_1.scatterDimsToOperandDims.length) :
    scatter_S16x128_S500000x1_S500000x128_1_0_0_1.siIdx j c = ix2 (j 0) 0 := by
  funext b
  refine Fin.ext ?_
  match b with
  | ⟨0, _⟩ => rfl
  | ⟨1, _⟩ =>
    show c.val = 0
    have := c.isLt
    simp [scatter_S16x128_S500000x1_S500000x128_1_0_0_1] at this
    omega

theorem sum_start0 (j : S500000x128.Idx) (idx : IVec S500000x1 32) :
    scatter_S16x128_S500000x1_S500000x128_1_0_0_1.start j idx 0 = (idx (ix2 (j 0) 0)).toInt := by
  unfold ScatterDims.start
  rw [dif_pos (show (0 : Fin 2) ∈ scatter_S16x128_S500000x1_S500000x128_1_0_0_1.scatterDimsToOperandDims from List.mem_singleton.mpr rfl)]
  rw [sum_siIdx]
  rfl

theorem sum_start1 (j : S500000x128.Idx) (idx : IVec S500000x1 32) :
    scatter_S16x128_S500000x1_S500000x128_1_0_0_1.start j idx 1 = 0 := by
  unfold ScatterDims.start
  rw [dif_neg (by decide)]

theorem sum_window0 (j : S500000x128.Idx) :
    scatter_S16x128_S500000x1_S500000x128_1_0_0_1.window j 0 = 0 := by
  unfold ScatterDims.window
  rw [dif_neg (by decide)]

theorem sum_window1 (j : S500000x128.Idx) :
    scatter_S16x128_S500000x1_S500000x128_1_0_0_1.window j 1 = (j 1).val := by
  unfold ScatterDims.window
  rw [dif_pos (by decide)]
  rfl

/-- An update element lands on `(b, l)` exactly when its row's word read signed is `b` and its lane is `l`. -/
theorem sum_lands (j : S500000x128.Idx) (idx : IVec S500000x1 32) (b : Fin 16) (l : Fin 128) :
    scatter_S16x128_S500000x1_S500000x128_1_0_0_1.resultIdx? j idx = some (ix2 b l)
      ↔ (idx (ix2 (j 0) 0)).toInt = (b.val : ℤ) ∧ (j 1).val = l.val := by
  unfold ScatterDims.resultIdx?
  have hb := b.isLt
  have hl := l.isLt
  have hj1 := idx2_lt1 j
  split
  · rename_i h
    have h0 := h 0
    have h1 := h 1
    rw [sum_start0, sum_window0] at h0
    rw [sum_start1, sum_window1] at h1
    constructor
    · intro e
      have e0 := congrArg (fun f => (f 0).val) (Option.some.inj e)
      have e1 := congrArg (fun f => (f 1).val) (Option.some.inj e)
      simp only [sum_start0, sum_window0] at e0
      simp only [sum_start1, sum_window1] at e1
      change ((idx (ix2 (j 0) 0)).toInt + ((0 : ℕ) : ℤ)).toNat = b.val at e0
      change ((0 : ℤ) + (((j 1).val : ℕ) : ℤ)).toNat = l.val at e1
      omega
    · intro e
      congr 1
      funext a
      refine Fin.ext ?_
      match a with
      | ⟨0, _⟩ =>
        show (scatter_S16x128_S500000x1_S500000x128_1_0_0_1.start j idx 0 + scatter_S16x128_S500000x1_S500000x128_1_0_0_1.window j 0).toNat = b.val
        rw [sum_start0, sum_window0]
        omega
      | ⟨1, _⟩ =>
        show (scatter_S16x128_S500000x1_S500000x128_1_0_0_1.start j idx 1 + scatter_S16x128_S500000x1_S500000x128_1_0_0_1.window j 1).toNat = l.val
        rw [sum_start1, sum_window1]
        omega
  · rename_i h
    constructor
    · intro e; exact absurd e (by simp)
    · intro e
      exfalso
      apply h
      intro a
      match a with
      | ⟨0, _⟩ =>
        show 0 ≤ scatter_S16x128_S500000x1_S500000x128_1_0_0_1.start j idx 0 + scatter_S16x128_S500000x1_S500000x128_1_0_0_1.window j 0 ∧ scatter_S16x128_S500000x1_S500000x128_1_0_0_1.start j idx 0 + scatter_S16x128_S500000x1_S500000x128_1_0_0_1.window j 0 < (16 : ℤ)
        rw [sum_start0, sum_window0]
        omega
      | ⟨1, _⟩ =>
        show 0 ≤ scatter_S16x128_S500000x1_S500000x128_1_0_0_1.start j idx 1 + scatter_S16x128_S500000x1_S500000x128_1_0_0_1.window j 1 ∧ scatter_S16x128_S500000x1_S500000x128_1_0_0_1.start j idx 1 + scatter_S16x128_S500000x1_S500000x128_1_0_0_1.window j 1 < (128 : ℤ)
        rw [sum_start1, sum_window1]
        omega

/-! ## The gather: which row of the table a result element reads -/

/-- The start-index word a result element of the gather reads: its row's word. -/
theorem gat_siIdx (j : S500000x128.Idx) (c : Fin gather_S16x128_S500000x1_S500000x128_1_0_n_n_0_1_1128.startIndexMap.length) :
    gather_S16x128_S500000x1_S500000x128_1_0_n_n_0_1_1128.siIdx j c = ix2 (j 0) 0 := by
  funext b
  refine Fin.ext ?_
  match b with
  | ⟨0, _⟩ => rfl
  | ⟨1, _⟩ =>
    show c.val = 0
    have := c.isLt
    simp [gather_S16x128_S500000x1_S500000x128_1_0_n_n_0_1_1128] at this
    omega

/-- The gather read at `(r, l)`: the table's row at the row's word, read signed and clamped into `[0, 15]`, at lane `l`. -/
theorem gather_apply {α : Type} (x : S16x128.Idx → α) (idx : IVec S500000x1 32) (r : Fin 500000) (l : Fin 128) :
    Host.gather gather_S16x128_S500000x1_S500000x128_1_0_n_n_0_1_1128 x idx (ix2 r l)
      = x (ix2 (⟨min (idx (ix2 r 0)).toInt.toNat 15, by omega⟩ : Fin 16) l) := by
  unfold Host.gather
  congr 1
  funext a
  refine Fin.ext ?_
  match a with
  | ⟨0, _⟩ =>
    show gather_S16x128_S500000x1_S500000x128_1_0_n_n_0_1_1128.start (ix2 r l) idx 0
        + gather_S16x128_S500000x1_S500000x128_1_0_n_n_0_1_1128.batchCoord (ix2 r l) 0
        + gather_S16x128_S500000x1_S500000x128_1_0_n_n_0_1_1128.offCoord (ix2 r l) 0 = min (idx (ix2 r 0)).toInt.toNat 15
    rw [GatherDims.batchCoord_eq_zero _ _ _ List.not_mem_nil, GatherDims.offCoord_eq_zero _ _ _ (by decide)]
    simp only [Nat.add_zero]
    unfold GatherDims.start
    rw [dif_pos (show (0 : Fin 2) ∈ gather_S16x128_S500000x1_S500000x128_1_0_n_n_0_1_1128.startIndexMap from List.mem_singleton.mpr rfl)]
    rw [gat_siIdx]
    rfl
  | ⟨1, _⟩ =>
    show gather_S16x128_S500000x1_S500000x128_1_0_n_n_0_1_1128.start (ix2 r l) idx 1
        + gather_S16x128_S500000x1_S500000x128_1_0_n_n_0_1_1128.batchCoord (ix2 r l) 1
        + gather_S16x128_S500000x1_S500000x128_1_0_n_n_0_1_1128.offCoord (ix2 r l) 1 = l.val
    rw [GatherDims.batchCoord_eq_zero _ _ _ List.not_mem_nil]
    unfold GatherDims.start GatherDims.offCoord
    rw [dif_neg (by decide), dif_pos (by decide)]
    simp only [Nat.add_zero, Nat.zero_add]
    rfl

/-- A word that is not negative passes the wrap-around select unchanged. -/
theorem select_nonneg (w a : BitVec 32) (hw : 0 ≤ w.toInt) : Scalar.select (IntOp.cmpi .slt w 0#32) a w = w := by
  have hs : w.slt 0#32 = false := by
    simp only [BitVec.slt, BitVec.toInt_zero, decide_eq_false_iff_not]
    omega
  have hc : IntOp.cmpi .slt w 0#32 = 0#1 := by
    unfold IntOp.cmpi
    simp only [hs]
    rfl
  rw [hc]
  exact select_zero _ _

/-! ## The three readings -/

/-- The reference's segment sums: segment `b`'s sum over all rows. -/
theorem ref_sums (x0 : (⟨S500000x128, .f32⟩ : BufTy).Contents (Elt Ideal)) (x1 : (⟨S500000, .i32⟩ : BufTy).Contents (Elt Ideal))
    (b : Fin 16) (l : Fin 128) :
    val_main_v2 (F := Ideal) x0 x1 (ix2 b l)
      = ∑ r ∈ Finset.range 500000, Cert.Spec.term (fun r l => x0 (ix2 r l)) (fun r => x1 (ix1 r)) b l r := by
  rw [val_main_v2, scatterAdd_apply, Ideal.hostScatterAdd]
  rw [val_main_v0_apply, val_main_cst_apply, Ideal.ofBits_def, Ideal.ofBits_zero_f32, zero_add]
  rw [Finset.sum_filter, sum_idx2, Finset.sum_range]
  refine Finset.sum_congr rfl fun r _ => ?_
  rw [Cert.Spec.term_lt _ _ _ _ _ r.isLt]
  have hw : val_main_v1 (F := Ideal) x1 (ix2 r 0) = x1 (ix1 r) := by
    rw [val_main_v1_apply]
    congr 1
    funext a
    match a with
    | ⟨0, _⟩ => rfl
  have hP : ∀ l' : Fin 128,
      (scatter_S16x128_S500000x1_S500000x128_1_0_0_1.resultIdx? (ix2 r l') (val_main_v1 (F := Ideal) x1) = some (ix2 b l))
        ↔ (x1 (ix1 r) = BitVec.ofNat 32 b.val ∧ l' = l) := by
    intro l'
    rw [sum_lands]
    show (val_main_v1 (F := Ideal) x1 (ix2 r 0)).toInt = _ ∧ l'.val = l.val ↔ _
    rw [hw, toInt_eq_iff _ _ b.isLt, Fin.val_inj]
  simp only [hP]
  unfold Cert.Spec.hot
  by_cases hwb : x1 (ix1 r) = BitVec.ofNat 32 b.val
  · have hwb' : x1 (ix1 ⟨r.val, r.isLt⟩) = BitVec.ofNat 32 b.val := hwb
    rw [if_pos hwb', one_mul]
    simp only [hwb, true_and]
    rw [Finset.sum_ite_eq' Finset.univ l (fun l' => x0 (ix2 r l'))]
    rw [if_pos (Finset.mem_univ l)]
  · have hwb' : ¬ x1 (ix1 ⟨r.val, r.isLt⟩) = BitVec.ofNat 32 b.val := hwb
    rw [if_neg hwb', zero_mul]
    simp only [hwb, false_and, if_false]
    exact Finset.sum_const_zero

/-- The reference's segment counts. -/
theorem ref_cnt (x1 : (⟨S500000, .i32⟩ : BufTy).Contents (Elt Ideal)) (b : Fin 16) :
    val_main_v6 (F := Ideal) x1 (ix1 b) = ∑ r ∈ Finset.range 500000, Cert.Spec.cterm (fun r => x1 (ix1 r)) b r := by
  rw [val_main_v6, scatterAdd_apply, Ideal.hostScatterAdd]
  rw [val_main_v4_apply, val_main_cst_1_apply, Ideal.ofBits_def, Ideal.ofBits_zero_f32, zero_add]
  rw [Finset.sum_filter, sum_idx1, Finset.sum_range]
  refine Finset.sum_congr rfl fun r _ => ?_
  rw [Cert.Spec.cterm_lt _ _ _ r.isLt]
  rw [val_main_v3_apply, val_main_cst_0_apply, Ideal.ofBits_def, ofBits_one_f32]
  unfold Cert.Spec.hot
  have hw : val_main_v5 (F := Ideal) x1 (ix2 r 0) = x1 (ix1 r) := by
    rw [val_main_v5_apply]
    congr 1
    funext a
    match a with
    | ⟨0, _⟩ => rfl
  refine if_congr ?_ rfl rfl
  rw [cnt_lands]
  show (val_main_v5 (F := Ideal) x1 (ix2 r 0)).toInt = _ ↔ _
  rw [hw]
  exact toInt_eq_iff _ _ b.isLt

/-- The reference's result, for segment words in range: the features times the one-hot row's product with the gate. -/
theorem ref_out (x0 : (⟨S500000x128, .f32⟩ : BufTy).Contents (Elt Ideal)) (x1 : (⟨S500000, .i32⟩ : BufTy).Contents (Elt Ideal))
    (x2 : (⟨S128x8, .f32⟩ : BufTy).Contents (Elt Ideal)) (x3 : (⟨S8, .f32⟩ : BufTy).Contents (Elt Ideal))
    (x4 : (⟨S8x128, .f32⟩ : BufTy).Contents (Elt Ideal)) (x5 : (⟨S128, .f32⟩ : BufTy).Contents (Elt Ideal))
    (hI : ∀ r : Fin 500000, 0 ≤ (x1 (ix1 r)).toInt ∧ (x1 (ix1 r)).toInt < 16) (r : Fin 500000) (l : Fin 128) :
    val_main_v34 (F := Ideal) x0 x1 x2 x3 x4 x5 (ix2 r l)
      = x0 (ix2 r l) * ∑ k : Fin 16, Cert.Spec.hot (x1 (ix1 r)) k.val * val_main_v26 (F := Ideal) x0 x1 x2 x3 x4 x5 (ix2 k l) := by
  rw [val_main_v34_apply]
  show x0 (ix2 r l) * val_main_v33 (F := Ideal) x0 x1 x2 x3 x4 x5 (ix2 r l) = _
  refine congrArg (fun y => x0 (ix2 r l) * y) ?_
  unfold val_main_v33
  generalize val_main_v26 (F := Ideal) x0 x1 x2 x3 x4 x5 = g
  rw [gather_apply]
  have hw : val_main_v32 (F := Ideal) x1 (ix2 r 0) = x1 (ix1 r) := by
    have hi : idx_main_v32 (ix2 r 0) = ix1 r := by
      funext a
      match a with
      | ⟨0, _⟩ => rfl
    rw [val_main_v32_apply, hi, val_main_v31_apply, val_main_v28_apply, val_main_v27_apply, val_main_c_apply]
    exact select_nonneg _ _ (hI r).1
  refine Eq.trans ?_ (Cert.Spec.pick (fun k => g (ix2 k l)) (x1 (ix1 r)) (hI r)).symm
  congr 2
  refine Fin.ext ?_
  show min (val_main_v32 (F := Ideal) x1 (ix2 r 0)).toInt.toNat 15 = (x1 (ix1 r)).toInt.toNat
  rw [hw]
  have := hI r
  omega

end Cert.ReferenceIdeal.RefSide

end
-- ==== Proof.Bridge.lean ====
/-
  The kernel program's result is the reference's, index by index, at the extended reals.

  Both programs multiply each feature by the one-hot row's product with a gate (the kernel literally; the reference's
  gather of the gate's row is that product when the segment id is one of the sixteen segment numbers). The two gates are
  one host chain applied to the segment sums and to `max (count, 1)`: the kernel's sums are its two core halves'
  partial sums over rows `[0, 250000)` and `[250000, 500000)` added up, the reference's one sum over all rows, and
  likewise the counts; the kernel broadcasts a column of counts along the lanes where the reference first makes the
  column out of a vector.
-/
import proofs.«427693_j21053929685330_3_alg».proof.Defs
import proofs.«427693_j21053929685330_3_alg».proof.Proof.Chain
import proofs.«427693_j21053929685330_3_alg».proof.Proof.Seg
import proofs.«427693_j21053929685330_3_alg».proof.Proof.Mul
import proofs.«427693_j21053929685330_3_alg».proof.Proof.RefSide
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.Bridge

open Cert.KernelIdeal Cert.KernelIdeal.Gen Cert.KernelIdeal.Host Cert.KernelIdeal.Chain

variable (m : (ℓ : Loc nD τ sig) → Buf (Elt Ideal) ℓ) (ρ : Dev nD → PrngReg)

/-- The argument arrays as launched, at their literal types. -/
abbrev a0 (c : Dev nD) : FVec Ideal S500000x128 .f32 := m ((c : Thread nD τ).loc main_arg0)
abbrev a1 (c : Dev nD) : IVec S500000 32 := m ((c : Thread nD τ).loc main_arg1)
abbrev a2 (c : Dev nD) : FVec Ideal S128x8 .f32 := m ((c : Thread nD τ).loc main_arg2)
abbrev a3 (c : Dev nD) : FVec Ideal S8 .f32 := m ((c : Thread nD τ).loc main_arg3)
abbrev a4 (c : Dev nD) : FVec Ideal S8x128 .f32 := m ((c : Thread nD τ).loc main_arg4)
abbrev a5 (c : Dev nD) : FVec Ideal S128 .f32 := m ((c : Thread nD τ).loc main_arg5)

/-- The segment ids as a column, read at a row. -/
theorem col_apply (x : IVec S500000 32) (r : Fin 500000) :
    shapeCast S500000x1 x shapeCasts_S500000_S500000x1 (ix2 r 0) = x (ix1 r) := by
  refine shapeCast_apply _ _ (ix2 r 0) (ix1 r) ?_
  rw [Shape.rowMajor_val_one, Shape.rowMajor_val_two]
  show r.val = r.val * 1 + 0
  omega

theorem X1 (c : Dev nD) : Cert.KernelIdeal.Seg.Xof (V1 m ρ) c = fun r l => a0 m c (ix2 r l) := by
  funext r l
  exact congrFun (V1_arg0 m ρ c) (ix2 r l)

theorem I1 (c : Dev nD) : Cert.KernelIdeal.Seg.Iof (V1 m ρ) c = fun r => a1 m c (ix1 r) := by
  funext r
  show V1 m ρ c main_v0 (ix2 r 0) = _
  rw [V1_v0]
  exact col_apply _ r

/-- The axis of the two core halves is summed away. -/
theorem red3 : S2x16x128.Reduces [0] S16x128 := by decide
theorem red3c : S2x16x1.Reduces [0] S16x1 := by decide

theorem lift3 (b : Fin 16) (l : Fin 128) (k : Fin 2) : red3.lift (ix2 b l) k = ix3 k b l := by
  funext a
  match a with
  | ⟨0, _⟩ => rfl
  | ⟨1, _⟩ => rfl
  | ⟨2, _⟩ => rfl

theorem lift3c (b : Fin 16) (k : Fin 2) : red3c.lift (ix2 b 0) k = ix3 k b 0 := by
  funext a
  match a with
  | ⟨0, _⟩ => rfl
  | ⟨1, _⟩ => rfl
  | ⟨2, _⟩ => rfl

/-- The rows split into the two core halves' stretches. -/
theorem halves (f : ℕ → EReal) : ∑ r ∈ Finset.range 500000, f r
    = ∑ r ∈ Finset.range 250000, f ((0 : Fin 2).val * 250000 + r) + ∑ r ∈ Finset.range 250000, f ((1 : Fin 2).val * 250000 + r) := by
  rw [show (500000 : ℕ) = 250000 + 250000 from rfl, Finset.sum_range_add]
  simp

theorem zero_word : (constant S_ .f32 (0x00000000#32) (Shape.Idx.first h_S_) : Ideal .f32) = 0 := Ideal.ofBits_zero_f32

theorem sums_eq (c : Dev nD) :
    sumsOf (F := Ideal) ((dat0 (V1 m ρ) c).arrAt 2 cfg0.N) = Cert.ReferenceIdeal.Read.val_main_v2 (F := Ideal) (a0 m c) (a1 m c) := by
  funext i
  obtain ⟨b, l, rfl⟩ : ∃ (b : Fin 16) (l : Fin 128), i = ix2 b l := ⟨i 0, i 1, eq_ix2 i⟩
  rw [Cert.ReferenceIdeal.RefSide.ref_sums]
  unfold sumsOf Host.reduceAdd
  rw [Ideal.hostReduceAdd_def, Ideal.hostReduceAdd_single reducesTo_S2x16x128_S16x128_d0 red3]
  rw [zero_word, zero_add]
  show ∑ k : Fin 2, _ = _
  rw [Fin.sum_univ_two, lift3, lift3, Cert.KernelIdeal.Seg.arr0_2 (V1 m ρ) c 0 b l, Cert.KernelIdeal.Seg.arr0_2 (V1 m ρ) c 1 b l,
    X1, I1, halves]

theorem I1c (c : Dev nD) (r : Fin 500000) : V1 m ρ c main_v0 (ix2 r 0) = a1 m c (ix1 r) := congrFun (I1 m ρ c) r

theorem one_word : (constant S_ .f32 (0x3F800000#32) (Shape.Idx.first h_S_) : Ideal .f32) = FloatOps.ofBits .f32 0x3F800000#32 := rfl

theorem den_eq (c : Dev nD) :
    denOf (F := Ideal) ((dat0 (V1 m ρ) c).arrAt 3 cfg0.N) = Cert.ReferenceIdeal.Read.val_main_v10 (F := Ideal) (a1 m c) := by
  funext i
  obtain ⟨b, l, rfl⟩ : ∃ (b : Fin 16) (l : Fin 128), i = ix2 b l := ⟨i 0, i 1, eq_ix2 i⟩
  rw [Cert.ReferenceIdeal.Read.val_main_v10_apply, Cert.ReferenceIdeal.Read.val_main_v9_apply,
    Cert.ReferenceIdeal.Read.val_main_v8_apply, Cert.ReferenceIdeal.Read.val_main_v7_apply,
    Cert.ReferenceIdeal.Read.val_main_cst_2_apply]
  have hi : Cert.ReferenceIdeal.Read.idx_main_v9 (Cert.ReferenceIdeal.Read.idx_main_v10 (ix2 b l)) = ix1 b := by
    funext a
    match a with
    | ⟨0, _⟩ => rfl
  rw [hi, Cert.ReferenceIdeal.RefSide.ref_cnt]
  unfold denOf
  rw [broadcastInDim_apply _ bcast_S16x1_S16x128_0_1 _ (ix2 b l) (ix2 b 0) (fun a => match a with
    | ⟨0, _⟩ => by show b.val = if (16 : Nat) = 1 then 0 else b.val; rw [if_neg (by decide)]
    | ⟨1, _⟩ => by show 0 = if (1 : Nat) = 1 then 0 else l.val; rw [if_pos rfl])]
  show FloatOps.maximumf (Host.reduceAdd _ _ reducesTo_S2x16x1_S16x1_d0 h_S_ (ix2 b 0))
    (broadcastInDim S16x1 ![] bcast_S_S16x1 (constant S_ .f32 0x3F800000#32) (ix2 b 0)) = _
  rw [broadcastInDim_apply _ bcast_S_S16x1 _ (ix2 b 0) (Shape.Idx.first h_S_) (fun a => a.elim0), one_word]
  refine congrArg (fun z : Ideal .f32 => FloatOps.maximumf z (FloatOps.ofBits .f32 0x3F800000#32)) ?_
  unfold Host.reduceAdd
  rw [Ideal.hostReduceAdd_def, Ideal.hostReduceAdd_single reducesTo_S2x16x1_S16x1_d0 red3c]
  rw [zero_word, zero_add]
  show ∑ k : Fin 2, _ = _
  rw [Fin.sum_univ_two, lift3c, lift3c, Cert.KernelIdeal.Seg.arr0_3 (V1 m ρ) c 0 b, Cert.KernelIdeal.Seg.arr0_3 (V1 m ρ) c 1 b,
    I1, halves]

/-- The reference's gate is the kernel program's host chain applied to the reference's sums and denominator. -/
theorem gate_ref (x0 : FVec Ideal S500000x128 .f32) (x1 : IVec S500000 32) (x2 : FVec Ideal S128x8 .f32) (x3 : FVec Ideal S8 .f32)
    (x4 : FVec Ideal S8x128 .f32) (x5 : FVec Ideal S128 .f32) :
    Cert.ReferenceIdeal.Read.val_main_v26 (F := Ideal) x0 x1 x2 x3 x4 x5
      = gateOf (F := Ideal) (reluOf (hidOf (Cert.ReferenceIdeal.Read.val_main_v2 (F := Ideal) x0 x1)
          (Cert.ReferenceIdeal.Read.val_main_v10 (F := Ideal) x1) x2 x3)) x4 x5 := rfl

/-- The gate the second call finds is the reference's. -/
theorem gate_eq (c : Dev nD) : V5 m ρ c main_v22
    = Cert.ReferenceIdeal.Read.val_main_v26 (F := Ideal) (a0 m c) (a1 m c) (a2 m c) (a3 m c) (a4 m c) (a5 m c) := by
  rw [V5_v22, sums_eq, den_eq, gate_ref]

/-- The program's result array is the reference's result, when every segment id is one of the sixteen segment numbers. -/
theorem result_eq (c : Dev nD) (hI : ∀ r : Fin 500000, 0 ≤ (a1 m c (ix1 r)).toInt ∧ (a1 m c (ix1 r)).toInt < 16) :
    W6 m ρ c (Proc.devRef .tc main_v23)
      = Cert.ReferenceIdeal.Read.val_main_v34 (F := Ideal) (a0 m c) (a1 m c) (a2 m c) (a3 m c) (a4 m c) (a5 m c) := by
  rw [W6_v23]
  funext i
  obtain ⟨r, l, rfl⟩ : ∃ (r : Fin 500000) (l : Fin 128), i = ix2 r l := ⟨i 0, i 1, eq_ix2 i⟩
  rw [Cert.ReferenceIdeal.RefSide.ref_out _ _ _ _ _ _ hI r l]
  refine (Cert.KernelIdeal.Mul.arr1_3 (V5 m ρ) c r l).trans ?_
  rw [show Cert.KernelIdeal.Mul.Xof (V5 m ρ) c r l = a0 m c (ix2 r l) from congrFun (V5_arg0 m ρ c) (ix2 r l),
    show Cert.KernelIdeal.Mul.Iof (V5 m ρ) c r = a1 m c (ix1 r) from (congrFun (V5_v0 m ρ c) (ix2 r 0)).trans (col_apply _ r)]
  refine congrArg (fun z : EReal => a0 m c (ix2 r l) * z) (Finset.sum_congr rfl fun k _ => ?_)
  rw [show Cert.KernelIdeal.Mul.Gof (V5 m ρ) c k l = _ from congrFun (gate_eq m ρ c) (ix2 k l)]

end Cert.Bridge

end
-- ==== Proof.PreRange.lean ====
/-
  The precondition read back: its last conjunct says every segment id, read signed, lies in `[0, 16)`.
-/
import proofs.«427693_j21053929685330_3_alg».proof.Pre_finite_inputs
import proofs.«427693_j21053929685330_3_alg».proof.Proof.Gen.Pre_finite_inputs
import Idealize.ShloMosaic.Lib.ReduceAll
import Idealize.ShloMosaic.Lib.StableHlo.Predicate
import Idealize.ShloMosaic.Lib.ValueIdx

noncomputable section

open Idealize.ShloMosaic Idealize.ShloMosaic.ValueIdx

namespace Cert.Pre_finite_inputs.Range

open Cert.Pre_finite_inputs Cert.Pre_finite_inputs.Gen

variable {F : FTy → Type} [FloatOps F]

instance : Subsingleton S_.Idx := ⟨fun a b => funext fun d => d.elim0⟩

/-- Under the precondition every segment id is one of the sixteen segment numbers. -/
theorem ids_in_range (a0 : FVec F S500000x128 .f32) (a1 : IVec S500000 32) (a2 : FVec F S128x8 .f32) (a3 : FVec F S8 .f32)
    (a4 : FVec F S8x128 .f32) (a5 : FVec F S128 .f32)
    (h : Cert.Pre_finite_inputs.fn (F := F) a0 a1 a2 a3 a4 a5 = fun _ => 1#1) (r : Fin 500000) :
    0 ≤ (a1 (ix1 r)).toInt ∧ (a1 (ix1 r)).toInt < 16 := by
  have h0 := congrFun h ValueIdx.ix0
  dsimp only [Cert.Pre_finite_inputs.fn, Cert.Pre_finite_inputs.fn_part1] at h0
  have h1 := (IntOp.andi_eq_one.1 h0).2
  have h2 := Host.reduce_andi_all _ _ _ _ _ h1 (ix1 r)
  obtain ⟨hge, hlt⟩ := IntOp.andi_eq_one.1 h2
  have hge' := IntOp.cmpi_sge.1 hge
  have hlt' := IntOp.cmpi_slt.1 hlt
  rw [StableHlo.Predicate.bcast_scalar _ (by decide)] at hge' hlt'
  have e0 : (0#32 : BitVec 32).toInt = 0 := by decide
  have e16 : (16#32 : BitVec 32).toInt = 16 := by decide
  change (0#32 : BitVec 32).toInt ≤ _ at hge'
  change _ < (16#32 : BitVec 32).toInt at hlt'
  rw [e0] at hge'
  rw [e16] at hlt'
  exact ⟨hge', hlt'⟩

end Cert.Pre_finite_inputs.Range

end
-- ==== Proof.lean ====
/-
  The claims of this certificate: a squeeze-and-excitation layer over 500000 points with 128 features, the points
  grouped into sixteen segments by an id per point.

  The kernel program sums each segment's features and counts its points in a first pallas_call — per grid point a
  one-hot matrix of the 5000 ids of a row tile times the tile, accumulated per core half —, adds the two halves on the
  host, divides by `max (count, 1)`, passes the means through a two-layer network and the logistic function to a gate
  of sixteen rows, and in a second pallas_call multiplies every point's features by its segment's gate row, picked by the
  same one-hot matrix. The reference does the same with a scatter-add and a gather.

  At the extended reals the one-hot products are exact selections (`0 * a = 0` and `1 * a = a` for every extended real),
  the sums are sums of the same terms in another grouping, and the host chains are one function; so the results agree
  wherever the gather reads the row the one-hot matrix picks: for ids among the sixteen segment numbers, which the
  precondition states (outside them the reference's gather clamps or wraps an id where the kernel's one-hot row is zero).
  The finiteness of the float inputs is not used.

  `preserves`: the ideal pass dropped one round trip through bf16 of the one-hot matrix, the identity at the extended reals.
-/
import proofs.«427693_j21053929685330_3_alg».proof.Defs
import proofs.«427693_j21053929685330_3_alg».proof.Proof.Gen.Kernel
import proofs.«427693_j21053929685330_3_alg».proof.Proof.Gen.Kernel.Frame
import proofs.«427693_j21053929685330_3_alg».proof.Proof.Gen.KernelIdeal
import proofs.«427693_j21053929685330_3_alg».proof.Proof.Gen.KernelIdeal.Frame
import proofs.«427693_j21053929685330_3_alg».proof.Proof.Gen.ReferenceIdeal
import proofs.«427693_j21053929685330_3_alg».proof.Proof.Gen.ReferenceIdeal.Run
import proofs.«427693_j21053929685330_3_alg».proof.Proof.Gen.ReferenceIdeal.Read
import proofs.«427693_j21053929685330_3_alg».proof.Proof.Gen.Pre_finite_inputs
import proofs.«427693_j21053929685330_3_alg».proof.Proof.RunValue
import proofs.«427693_j21053929685330_3_alg».proof.Proof.Bridge
import proofs.«427693_j21053929685330_3_alg».proof.Proof.PreRange
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: a float narrowed to bf16 and widened back is itself at the extended reals. -/
theorem preserves : Cert.preserves_Kernel_KernelIdeal := IdealRules.truncf_extf.statement _ .f32 .bf16

/-- The two idealized programs, from memories that agree on the arguments, end with the same result array. -/
theorem algebraic : Cert.algebraic_KernelIdeal_ReferenceIdeal := by
  intro m ρ m' ρ' hpre hagree
  refine ⟨fun c => Cert.ReferenceIdeal.Read.val_main_v34 (F := Ideal) (Cert.Bridge.a0 m c) (Cert.Bridge.a1 m c)
    (Cert.Bridge.a2 m c) (Cert.Bridge.a3 m c) (Cert.Bridge.a4 m c) (Cert.Bridge.a5 m c), ?_, ?_⟩
  · exact (θ_run Cert.KernelIdeal.defs _ _).mono
      (fun _ h c => ⟨(h c).1.trans (Cert.Bridge.result_eq m ρ c
        (fun r => Cert.Pre_finite_inputs.Range.ids_in_range _ _ _ _ _ _ (hpre c) r)), (h c).2⟩)
      (Cert.KernelIdeal.Gen.run_value m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v34_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
